-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x321x128x12 : Shape := ⟨4, ![64, 321, 128, 12]⟩
abbrev S96x3072 : Shape := ⟨2, ![96, 3072]⟩
abbrev S96 : Shape := ⟨1, ![96]⟩
abbrev S_ : Shape := ⟨0, ![]⟩

class Facts : Prop where
  bcast_S_S64x321x128x12 : S_.BroadcastsInDim S64x321x128x12 (![] : Fin 0 → Fin S64x321x128x12.rank)
  reducesTo_S64x321x128x12_S_d0_1_2_3 : S64x321x128x12.ReducesTo [0, 1, 2, 3] S_
  h_S_ : 0 < S_.numel
  bcast_S_S96x3072 : S_.BroadcastsInDim S96x3072 (![] : Fin 0 → Fin S96x3072.rank)
  reducesTo_S96x3072_S_d0_1 : S96x3072.ReducesTo [0, 1] S_
  bcast_S_S96 : S_.BroadcastsInDim S96 (![] : Fin 0 → Fin S96.rank)
  reducesTo_S96_S_d0 : S96.ReducesTo [0] S_

variable [Facts]

def fn_part1 {F : FTy → Type} [FloatOps F] (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  main_v18

def fn {F : FTy → Type} [FloatOps F] (main_arg0 : FVec F S64x321x128x12 .f32) (main_arg1 : FVec F S64x321x128x12 .f32) (main_arg2 : FVec F S96x3072 .f32) (main_arg3 : FVec F S96 .f32) : IVec S_ 1 :=
  let main_v0 : FVec F S64x321x128x12 .f32 := Host.absf main_arg0
  let main_cst : FVec F S_ .f32 := constant S_ .f32 0x7F800000#32
  let main_v1 : FVec F S64x321x128x12 .f32 := broadcastInDim S64x321x128x12 ![] bcast_S_S64x321x128x12 main_cst
  let main_v2 : IVec S64x321x128x12 1 := cmpf .olt main_v0 main_v1
  let main_c : IVec S_ 1 := constantI S_ 1 1#1
  let main_v3 : IVec S_ 1 := (fun x v => Host.reduce IntOp.andi x v reducesTo_S64x321x128x12_S_d0_1_2_3 h_S_) main_v2 main_c
  let main_v4 : FVec F S64x321x128x12 .f32 := Host.absf main_arg1
  let main_cst_0 : FVec F S_ .f32 := constant S_ .f32 0x7F800000#32
  let main_v5 : FVec F S64x321x128x12 .f32 := broadcastInDim S64x321x128x12 ![] bcast_S_S64x321x128x12 main_cst_0
  let main_v6 : IVec S64x321x128x12 1 := cmpf .olt main_v4 main_v5
  let main_c_1 : IVec S_ 1 := constantI S_ 1 1#1
  let main_v7 : IVec S_ 1 := (fun x v => Host.reduce IntOp.andi x v reducesTo_S64x321x128x12_S_d0_1_2_3 h_S_) main_v6 main_c_1
  let main_v8 : IVec S_ 1 := andi main_v3 main_v7
  let main_v9 : FVec F S96x3072 .f32 := Host.absf main_arg2
  let main_cst_2 : FVec F S_ .f32 := constant S_ .f32 0x7F800000#32
  let main_v10 : FVec F S96x3072 .f32 := broadcastInDim S96x3072 ![] bcast_S_S96x3072 main_cst_2
  let main_v11 : IVec S96x3072 1 := cmpf .olt main_v9 main_v10
  let main_c_3 : IVec S_ 1 := constantI S_ 1 1#1
  let main_v12 : IVec S_ 1 := (fun x v => Host.reduce IntOp.andi x v reducesTo_S96x3072_S_d0_1 h_S_) main_v11 main_c_3
  let main_v13 : IVec S_ 1 := andi main_v8 main_v12
  let main_v14 : FVec F S96 .f32 := Host.absf main_arg3
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_v13 main_v16
-- ==== Kernel.lean ====
abbrev S64x321x128x12 : Shape := ⟨4, ![64, 321, 128, 12]⟩
abbrev S96x3072 : Shape := ⟨2, ![96, 3072]⟩
abbrev S96 : Shape := ⟨1, ![96]⟩
abbrev S321x12x64x128 : Shape := ⟨4, ![321, 12, 64, 128]⟩
abbrev S96x1536 : Shape := ⟨2, ![96, 1536]⟩
abbrev S96x128x12 : Shape := ⟨3, ![96, 128, 12]⟩
abbrev S12x128x96 : Shape := ⟨3, ![12, 128, 96]⟩
abbrev S1x96 : Shape := ⟨2, ![1, 96]⟩
abbrev S64x321x96 : Shape := ⟨3, ![64, 321, 96]⟩
abbrev S24x12x64x128 : Shape := ⟨4, ![24, 12, 64, 128]⟩
abbrev S64x24x96 : Shape := ⟨3, ![64, 24, 96]⟩
abbrev S64x96 : Shape := ⟨2, ![64, 96]⟩
abbrev S1x1x64x128 : Shape := ⟨4, ![1, 1, 64, 128]⟩
abbrev S64x128 : Shape := ⟨2, ![64, 128]⟩
abbrev S1x128x96 : Shape := ⟨3, ![1, 128, 96]⟩
abbrev S128x96 : Shape := ⟨2, ![128, 96]⟩
abbrev S1x64x96 : Shape := ⟨3, ![1, 64, 96]⟩
abbrev S24x64x96 : Shape := ⟨3, ![24, 64, 96]⟩

abbrev nBuf : Space → Nat
  | .hbm => 14
  | .vmem => 9
  | .smem => 0
  | _ => 0

abbrev bufTy : (tb : Table) → Fin (tcTables nBuf tb) → BufTy
  | .hbm, ⟨0, _⟩ => ⟨S64x321x128x12, .f32⟩
  | .hbm, ⟨1, _⟩ => ⟨S64x321x128x12, .f32⟩
  | .hbm, ⟨2, _⟩ => ⟨S96x3072, .f32⟩
  | .hbm, ⟨3, _⟩ => ⟨S96, .f32⟩
  | .hbm, ⟨4, _⟩ => ⟨S321x12x64x128, .f32⟩
  | .hbm, ⟨5, _⟩ => ⟨S321x12x64x128, .f32⟩
  | .hbm, ⟨6, _⟩ => ⟨S96x1536, .f32⟩
  | .hbm, ⟨7, _⟩ => ⟨S96x128x12, .f32⟩
  | .hbm, ⟨8, _⟩ => ⟨S12x128x96, .f32⟩
  | .hbm, ⟨9, _⟩ => ⟨S96x1536, .f32⟩
  | .hbm, ⟨10, _⟩ => ⟨S96x128x12, .f32⟩
  | .hbm, ⟨11, _⟩ => ⟨S12x128x96, .f32⟩
  | .hbm, ⟨12, _⟩ => ⟨S1x96, .f32⟩
  | .hbm, ⟨13, _⟩ => ⟨S64x321x96, .f32⟩
  | .local _ .vmem, ⟨0, _⟩ => ⟨S24x12x64x128, .f32⟩
  | .local _ .vmem, ⟨1, _⟩ => ⟨S24x12x64x128, .f32⟩
  | .local _ .vmem, ⟨2, _⟩ => ⟨S24x12x64x128, .f32⟩
  | .local _ .vmem, ⟨3, _⟩ => ⟨S24x12x64x128, .f32⟩
  | .local _ .vmem, ⟨4, _⟩ => ⟨S12x128x96, .f32⟩
  | .local _ .vmem, ⟨5, _⟩ => ⟨S12x128x96, .f32⟩
  | .local _ .vmem, ⟨6, _⟩ => ⟨S1x96, .f32⟩
  | .local _ .vmem, ⟨7, _⟩ => ⟨S64x24x96, .f32⟩
  | .local _ .vmem, ⟨8, _⟩ => ⟨S64x24x96, .f32⟩
  | _, _ => ⟨S64x321x128x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![14], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S24x12x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S24x12x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S12x128x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S12x128x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x24x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S64x321x128x12_S321x12x64x128_1_3_0_2 : S64x321x128x12.Transposes [1, 3, 0, 2] S321x12x64x128
  slices_S96x3072_S96x1536_0_0 : S96x3072.Slices ![0, 0] S96x1536
  shapeCasts_S96x1536_S96x128x12 : S96x1536.ShapeCasts S96x128x12
  transposes_S96x128x12_S12x128x96_2_1_0 : S96x128x12.Transposes [2, 1, 0] S12x128x96
  slices_S96x3072_S96x1536_0_1536 : S96x3072.Slices ![0, 1536] S96x1536
  shapeCasts_S96_S1x96 : S96.ShapeCasts S1x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S64x96 : S1x96.Broadcasts S64x96
  inb_S24x12x64x128_S1x1x64x128_0_0_0_0 : ∀ a, (![0, 0, 0, 0] : Fin 4 → Nat) a + S1x1x64x128.size a ≤ S24x12x64x128.size a
  h_S1x1x64x128 : 0 < S1x1x64x128.numel
  shapeCasts_S1x1x64x128_S64x128 : S1x1x64x128.ShapeCasts S64x128
  inb_S12x128x96_S1x128x96_0_0_0 : ∀ a, (![0, 0, 0] : Fin 3 → Nat) a + S1x128x96.size a ≤ S12x128x96.size a
  h_S1x128x96 : 0 < S1x128x96.numel
  shapeCasts_S1x128x96_S128x96 : S1x128x96.ShapeCasts S128x96
  inb_S24x12x64x128_S1x1x64x128_0_1_0_0 : ∀ a, (![0, 1, 0, 0] : Fin 4 → Nat) a + S1x1x64x128.size a ≤ S24x12x64x128.size a
  inb_S12x128x96_S1x128x96_1_0_0 : ∀ a, (![1, 0, 0] : Fin 3 → Nat) a + S1x128x96.size a ≤ S12x128x96.size a
  inb_S24x12x64x128_S1x1x64x128_0_2_0_0 : ∀ a, (![0, 2, 0, 0] : Fin 4 → Nat) a + S1x1x64x128.size a ≤ S24x12x64x128.size a
  inb_S12x128x96_S1x128x96_2_0_0 : ∀ a, (![2, 0, 0] : Fin 3 → Nat) a + S1x128x96.size a ≤ S12x128x96.size a
  inb_S24x12x64x128_S1x1x64x128_0_3_0_0 : ∀ a, (![0, 3, 0, 0] : Fin 4 → Nat) a + S1x1x64x128.size a ≤ S24x12x64x128.size a
  inb_S12x128x96_S1x128x96_3_0_0 : ∀ a, (![3, 0, 0] : Fin 3 → Nat) a + S1x128x96.size a ≤ S12x128x96.size a
  inb_S24x12x64x128_S1x1x64x128_0_4_0_0 : ∀ a, (![0, 4, 0, 0] : Fin 4 → Nat) a + S1x1x64x128.size a ≤ S24x12x64x128.size a
  inb_S12x128x96_S1x128x96_4_0_0 : ∀ a, (![4, 0, 0] : Fin 3 → Nat) a + S1x128x96.size a ≤ S12x128x96.size a
  inb_S24x12x64x128_S1x1x64x128_0_5_0_0 : ∀ a, (![0, 5, 0, 0] : Fin 4 → Nat) a + S1x1x64x128.size a ≤ S24x12x64x128.size a
  inb_S12x128x96_S1x128x96_5_0_0 : ∀ a, (![5, 0, 0] : Fin 3 → Nat) a + S1x128x96.size a ≤ S12x128x96.size a
  inb_S24x12x64x128_S1x1x64x128_0_6_0_0 : ∀ a, (![0, 6, 0, 0] : Fin 4 → Nat) a + S1x1x64x128.size a ≤ S24x12x64x128.size a
  inb_S12x128x96_S1x128x96_6_0_0 : ∀ a, (![6, 0, 0] : Fin 3 → Nat) a + S1x128x96.size a ≤ S12x128x96.size a
  inb_S24x12x64x128_S1x1x64x128_0_7_0_0 : ∀ a, (![0, 7, 0, 0] : Fin 4 → Nat) a + S1x1x64x128.size a ≤ S24x12x64x128.size a
  inb_S12x128x96_S1x128x96_7_0_0 : ∀ a, (![7, 0, 0] : Fin 3 → Nat) a + S1x128x96.size a ≤ S12x128x96.size a
  inb_S24x12x64x128_S1x1x64x128_0_8_0_0 : ∀ a, (![0, 8, 0, 0] : Fin 4 → Nat) a + S1x1x64x128.size a ≤ S24x12x64x128.size a
  inb_S12x128x96_S1x128x96_8_0_0 : ∀ a, (![8, 0, 0] : Fin 3 → Nat) a + S1x128x96.size a ≤ S12x128x96.size a
  inb_S24x12x64x128_S1x1x64x128_0_9_0_0 : ∀ a, (![0, 9, 0, 0] : Fin 4 → Nat) a + S1x1x64x128.size a ≤ S24x12x64x128.size a
  inb_S12x128x96_S1x128x96_9_0_0 : ∀ a, (![9, 0, 0] : Fin 3 → Nat) a + S1x128x96.size a ≤ S12x128x96.size a
  inb_S24x12x64x128_S1x1x64x128_0_10_0_0 : ∀ a, (![0, 10, 0, 0] : Fin 4 → Nat) a + S1x1x64x128.size a ≤ S24x12x64x128.size a
  inb_S12x128x96_S1x128x96_10_0_0 : ∀ a, (![10, 0, 0] : Fin 3 → Nat) a + S1x128x96.size a ≤ S12x128x96.size a
  inb_S24x12x64x128_S1x1x64x128_0_11_0_0 : ∀ a, (![0, 11, 0, 0] : Fin 4 → Nat) a + S1x1x64x128.size a ≤ S24x12x64x128.size a
  inb_S12x128x96_S1x128x96_11_0_0 : ∀ a, (![11, 0, 0] : Fin 3 → Nat) a + S1x128x96.size a ≤ S12x128x96.size a
  inb_S24x12x64x128_S1x1x64x128_1_0_0_0 : ∀ a, (![1, 0, 0, 0] : Fin 4 → Nat) a + S1x1x64x128.size a ≤ S24x12x64x128.size a
  inb_S24x12x64x128_S1x1x64x128_1_1_0_0 : ∀ a, (![1, 1, 0, 0] : Fin 4 → Nat) a + S1x1x64x128.size a ≤ S24x12x64x128.size a
  inb_S24x12x64x128_S1x1x64x128_1_2_0_0 : ∀ a, (![1, 2, 0, 0] : Fin 4 → Nat) a + S1x1x64x128.size a ≤ S24x12x64x128.size a
  inb_S24x12x64x128_S1x1x64x128_1_3_0_0 : ∀ a, (![1, 3, 0, 0] : Fin 4 → Nat) a + S1x1x64x128.size a ≤ S24x12x64x128.size a
  inb_S24x12x64x128_S1x1x64x128_1_4_0_0 : ∀ a, (![1, 4, 0, 0] : Fin 4 → Nat) a + S1x1x64x128.size a ≤ S24x12x64x128.size a
  inb_S24x12x64x128_S1x1x64x128_1_5_0_0 : ∀ a, (![1, 5, 0, 0] : Fin 4 → Nat) a + S1x1x64x128.size a ≤ S24x12x64x128.size a
  inb_S24x12x64x128_S1x1x64x128_1_6_0_0 : ∀ a, (![1, 6, 0, 0] : Fin 4 → Nat) a + S1x1x64x128.size a ≤ S24x12x64x128.size a
  inb_S24x12x64x128_S1x1x64x128_1_7_0_0 : ∀ a, (![1, 7, 0, 0] : Fin 4 → Nat) a + S1x1x64x128.size a ≤ S24x12x64x128.size a
  inb_S24x12x64x128_S1x1x64x128_1_8_0_0 : ∀ a, (![1, 8, 0, 0] : Fin 4 → Nat) a + S1x1x64x128.size a ≤ S24x12x64x128.size a
  inb_S24x12x64x128_S1x1x64x128_1_9_0_0 : ∀ a, (![1, 9, 0, 0] : Fin 4 → Nat) a + S1x1x64x128.size a ≤ S24x12x64x128.size a
  inb_S24x12x64x128_S1x1x64x128_1_10_0_0 : ∀ a, (![1, 10, 0, 0] : Fin 4 → Nat) a + S1x1x64x128.size a ≤ S24x12x64x128.size a
  inb_S24x12x64x128_S1x1x64x128_1_11_0_0 : ∀ a, (![1, 11, 0, 0] : Fin 4 → Nat) a + S1x1x64x128.size a ≤ S24x12x64x128.size a
  inb_S24x12x64x128_S1x1x64x128_2_0_0_0 : ∀ a, (![2, 0, 0, 0] : Fin 4 → Nat) a + S1x1x64x128.size a ≤ S24x12x64x128.size a
  inb_S24x12x64x128_S1x1x64x128_2_1_0_0 : ∀ a, (![2, 1, 0, 0] : Fin 4 → Nat) a + S1x1x64x128.size a ≤ S24x12x64x128.size a
  inb_S24x12x64x128_S1x1x64x128_2_2_0_0 : ∀ a, (![2, 2, 0, 0] : Fin 4 → Nat) a + S1x1x64x128.size a ≤ S24x12x64x128.size a
  inb_S24x12x64x128_S1x1x64x128_2_3_0_0 : ∀ a, (![2, 3, 0, 0] : Fin 4 → Nat) a + S1x1x64x128.size a ≤ S24x12x64x128.size a
  inb_S24x12x64x128_S1x1x64x128_2_4_0_0 : ∀ a, (![2, 4, 0, 0] : Fin 4 → Nat) a + S1x1x64x128.size a ≤ S24x12x64x128.size a
  inb_S24x12x64x128_S1x1x64x128_2_5_0_0 : ∀ a, (![2, 5, 0, 0] : Fin 4 → Nat) a + S1x1x64x128.size a ≤ S24x12x64x128.size a
  inb_S24x12x64x128_S1x1x64x128_2_6_0_0 : ∀ a, (![2, 6, 0, 0] : Fin 4 → Nat) a + S1x1x64x128.size a ≤ S24x12x64x128.size a
  inb_S24x12x64x128_S1x1x64x128_2_7_0_0 : ∀ a, (![2, 7, 0, 0] : Fin 4 → Nat) a + S1x1x64x128.size a ≤ S24x12x64x128.size a
  inb_S24x12x64x128_S1x1x64x128_2_8_0_0 : ∀ a, (![2, 8, 0, 0] : Fin 4 → Nat) a + S1x1x64x128.size a ≤ S24x12x64x128.size a
  inb_S24x12x64x128_S1x1x64x128_2_9_0_0 : ∀ a, (![2, 9, 0, 0] : Fin 4 → Nat) a + S1x1x64x128.size a ≤ S24x12x64x128.size a
  inb_S24x12x64x128_S1x1x64x128_2_10_0_0 : ∀ a, (![2, 10, 0, 0] : Fin 4 → Nat) a + S1x1x64x128.size a ≤ S24x12x64x128.size a
  inb_S24x12x64x128_S1x1x64x128_2_11_0_0 : ∀ a, (![2, 11, 0, 0] : Fin 4 → Nat) a + S1x1x64x128.size a ≤ S24x12x64x128.size a
  inb_S24x12x64x128_S1x1x64x128_3_0_0_0 : ∀ a, (![3, 0, 0, 0] : Fin 4 → Nat) a + S1x1x64x128.size a ≤ S24x12x64x128.size a
  inb_S24x12x64x128_S1x1x64x128_3_1_0_0 : ∀ a, (![3, 1, 0, 0] : Fin 4 → Nat) a + S1x1x64x128.size a ≤ S24x12x64x128.size a
  inb_S24x12x64x128_S1x1x64x128_3_2_0_0 : ∀ a, (![3, 2, 0, 0] : Fin 4 → Nat) a + S1x1x64x128.size a ≤ S24x12x64x128.size a
  inb_S24x12x64x128_S1x1x64x128_3_3_0_0 : ∀ a, (![3, 3, 0, 0] : Fin 4 → Nat) a + S1x1x64x128.size a ≤ S24x12x64x128.size a
  inb_S24x12x64x128_S1x1x64x128_3_4_0_0 : ∀ a, (![3, 4, 0, 0] : Fin 4 → Nat) a + S1x1x64x128.size a ≤ S24x12x64x128.size a
  inb_S24x12x64x128_S1x1x64x128_3_5_0_0 : ∀ a, (![3, 5, 0, 0] : Fin 4 → Nat) a + S1x1x64x128.size a ≤ S24x12x64x128.size a
  inb_S24x12x64x128_S1x1x64x128_3_6_0_0 : ∀ a, (![3, 6, 0, 0] : Fin 4 → Nat) a + S1x1x64x128.size a ≤ S24x12x64x128.size a
  inb_S24x12x64x128_S1x1x64x128_3_7_0_0 : ∀ a, (![3, 7, 0, 0] : Fin 4 → Nat) a + S1x1x64x128.size a ≤ S24x12x64x128.size a
  inb_S24x12x64x128_S1x1x64x128_3_8_0_0 : ∀ a, (![3, 8, 0, 0] : Fin 4 → Nat) a + S1x1x64x128.size a ≤ S24x12x64x128.size a
  inb_S24x12x64x128_S1x1x64x128_3_9_0_0 : ∀ a, (![3, 9, 0, 0] : Fin 4 → Nat) a + S1x1x64x128.size a ≤ S24x12x64x128.size a
  inb_S24x12x64x128_S1x1x64x128_3_10_0_0 : ∀ a, (![3, 10, 0, 0] : Fin 4 → Nat) a + S1x1x64x128.size a ≤ S24x12x64x128.size a
  inb_S24x12x64x128_S1x1x64x128_3_11_0_0 : ∀ a, (![3, 11, 0, 0] : Fin 4 → Nat) a + S1x1x64x128.size a ≤ S24x12x64x128.size a
  inb_S24x12x64x128_S1x1x64x128_4_0_0_0 : ∀ a, (![4, 0, 0, 0] : Fin 4 → Nat) a + S1x1x64x128.size a ≤ S24x12x64x128.size a
  inb_S24x12x64x128_S1x1x64x128_4_1_0_0 : ∀ a, (![4, 1, 0, 0] : Fin 4 → Nat) a + S1x1x64x128.size a ≤ S24x12x64x128.size a
  inb_S24x12x64x128_S1x1x64x128_4_2_0_0 : ∀ a, (![4, 2, 0, 0] : Fin 4 → Nat) a + S1x1x64x128.size a ≤ S24x12x64x128.size a
  inb_S24x12x64x128_S1x1x64x128_4_3_0_0 : ∀ a, (![4, 3, 0, 0] : Fin 4 → Nat) a + S1x1x64x128.size a ≤ S24x12x64x128.size a
  inb_S24x12x64x128_S1x1x64x128_4_4_0_0 : ∀ a, (![4, 4, 0, 0] : Fin 4 → Nat) a + S1x1x64x128.size a ≤ S24x12x64x128.size a
  inb_S24x12x64x128_S1x1x64x128_4_5_0_0 : ∀ a, (![4, 5, 0, 0] : Fin 4 → Nat) a + S1x1x64x128.size a ≤ S24x12x64x128.size a
  inb_S24x12x64x128_S1x1x64x128_4_6_0_0 : ∀ a, (![4, 6, 0, 0] : Fin 4 → Nat) a + S1x1x64x128.size a ≤ S24x12x64x128.size a
  inb_S24x12x64x128_S1x1x64x128_4_7_0_0 : ∀ a, (![4, 7, 0, 0] : Fin 4 → Nat) a + S1x1x64x128.size a ≤ S24x12x64x128.size a
  inb_S24x12x64x128_S1x1x64x128_4_8_0_0 : ∀ a, (![4, 8, 0, 0] : Fin 4 → Nat) a + S1x1x64x128.size a ≤ S24x12x64x128.size a
  inb_S24x12x64x128_S1x1x64x128_4_9_0_0 : ∀ a, (![4, 9, 0, 0] : Fin 4 → Nat) a + S1x1x64x128.size a ≤ S24x12x64x128.size a
  inb_S24x12x64x128_S1x1x64x128_4_10_0_0 : ∀ a, (![4, 10, 0, 0] : Fin 4 → Nat) a + S1x1x64x128.size a ≤ S24x12x64x128.size a
  inb_S24x12x64x128_S1x1x64x128_4_11_0_0 : ∀ a, (![4, 11, 0, 0] : Fin 4 → Nat) a + S1x1x64x128.size a ≤ S24x12x64x128.size a
  inb_S24x12x64x128_S1x1x64x128_5_0_0_0 : ∀ a, (![5, 0, 0, 0] : Fin 4 → Nat) a + S1x1x64x128.size a ≤ S24x12x64x128.size a
  inb_S24x12x64x128_S1x1x64x128_5_1_0_0 : ∀ a, (![5, 1, 0, 0] : Fin 4 → Nat) a + S1x1x64x128.size a ≤ S24x12x64x128.size a
  inb_S24x12x64x128_S1x1x64x128_5_2_0_0 : ∀ a, (![5, 2, 0, 0] : Fin 4 → Nat) a + S1x1x64x128.size a ≤ S24x12x64x128.size a
  inb_S24x12x64x128_S1x1x64x128_5_3_0_0 : ∀ a, (![5, 3, 0, 0] : Fin 4 → Nat) a + S1x1x64x128.size a ≤ S24x12x64x128.size a
  inb_S24x12x64x128_S1x1x64x128_5_4_0_0 : ∀ a, (![5, 4, 0, 0] : Fin 4 → Nat) a + S1x1x64x128.size a ≤ S24x12x64x128.size a
  inb_S24x12x64x128_S1x1x64x128_5_5_0_0 : ∀ a, (![5, 5, 0, 0] : Fin 4 → Nat) a + S1x1x64x128.size a ≤ S24x12x64x128.size a
  inb_S24x12x64x128_S1x1x64x128_5_6_0_0 : ∀ a, (![5, 6, 0, 0] : Fin 4 → Nat) a + S1x1x64x128.size a ≤ S24x12x64x128.size a
  inb_S24x12x64x128_S1x1x64x128_5_7_0_0 : ∀ a, (![5, 7, 0, 0] : Fin 4 → Nat) a + S1x1x64x128.size a ≤ S24x12x64x128.size a
  inb_S24x12x64x128_S1x1x64x128_5_8_0_0 : ∀ a, (![5, 8, 0, 0] : Fin 4 → Nat) a + S1x1x64x128.size a ≤ S24x12x64x128.size a
  inb_S24x12x64x128_S1x1x64x128_5_9_0_0 : ∀ a, (![5, 9, 0, 0] : Fin 4 → Nat) a + S1x1x64x128.size a ≤ S24x12x64x128.size a
  inb_S24x12x64x128_S1x1x64x128_5_10_0_0 : ∀ a, (![5, 10, 0, 0] : Fin 4 → Nat) a + S1x1x64x128.size a ≤ S24x12x64x128.size a
  inb_S24x12x64x128_S1x1x64x128_5_11_0_0 : ∀ a, (![5, 11, 0, 0] : Fin 4 → Nat) a + S1x1x64x128.size a ≤ S24x12x64x128.size a
  inb_S24x12x64x128_S1x1x64x128_6_0_0_0 : ∀ a, (![6, 0, 0, 0] : Fin 4 → Nat) a + S1x1x64x128.size a ≤ S24x12x64x128.size a
  inb_S24x12x64x128_S1x1x64x128_6_1_0_0 : ∀ a, (![6, 1, 0, 0] : Fin 4 → Nat) a + S1x1x64x128.size a ≤ S24x12x64x128.size a
  inb_S24x12x64x128_S1x1x64x128_6_2_0_0 : ∀ a, (![6, 2, 0, 0] : Fin 4 → Nat) a + S1x1x64x128.size a ≤ S24x12x64x128.size a
  inb_S24x12x64x128_S1x1x64x128_6_3_0_0 : ∀ a, (![6, 3, 0, 0] : Fin 4 → Nat) a + S1x1x64x128.size a ≤ S24x12x64x128.size a
  inb_S24x12x64x128_S1x1x64x128_6_4_0_0 : ∀ a, (![6, 4, 0, 0] : Fin 4 → Nat) a + S1x1x64x128.size a ≤ S24x12x64x128.size a
  inb_S24x12x64x128_S1x1x64x128_6_5_0_0 : ∀ a, (![6, 5, 0, 0] : Fin 4 → Nat) a + S1x1x64x128.size a ≤ S24x12x64x128.size a
  inb_S24x12x64x128_S1x1x64x128_6_6_0_0 : ∀ a, (![6, 6, 0, 0] : Fin 4 → Nat) a + S1x1x64x128.size a ≤ S24x12x64x128.size a
  inb_S24x12x64x128_S1x1x64x128_6_7_0_0 : ∀ a, (![6, 7, 0, 0] : Fin 4 → Nat) a + S1x1x64x128.size a ≤ S24x12x64x128.size a
  inb_S24x12x64x128_S1x1x64x128_6_8_0_0 : ∀ a, (![6, 8, 0, 0] : Fin 4 → Nat) a + S1x1x64x128.size a ≤ S24x12x64x128.size a
  inb_S24x12x64x128_S1x1x64x128_6_9_0_0 : ∀ a, (![6, 9, 0, 0] : Fin 4 → Nat) a + S1x1x64x128.size a ≤ S24x12x64x128.size a
  inb_S24x12x64x128_S1x1x64x128_6_10_0_0 : ∀ a, (![6, 10, 0, 0] : Fin 4 → Nat) a + S1x1x64x128.size a ≤ S24x12x64x128.size a
  inb_S24x12x64x128_S1x1x64x128_6_11_0_0 : ∀ a, (![6, 11, 0, 0] : Fin 4 → Nat) a + S1x1x64x128.size a ≤ S24x12x64x128.size a
  inb_S24x12x64x128_S1x1x64x128_7_0_0_0 : ∀ a, (![7, 0, 0, 0] : Fin 4 → Nat) a + S1x1x64x128.size a ≤ S24x12x64x128.size a
  inb_S24x12x64x128_S1x1x64x128_7_1_0_0 : ∀ a, (![7, 1, 0, 0] : Fin 4 → Nat) a + S1x1x64x128.size a ≤ S24x12x64x128.size a
  inb_S24x12x64x128_S1x1x64x128_7_2_0_0 : ∀ a, (![7, 2, 0, 0] : Fin 4 → Nat) a + S1x1x64x128.size a ≤ S24x12x64x128.size a
  inb_S24x12x64x128_S1x1x64x128_7_3_0_0 : ∀ a, (![7, 3, 0, 0] : Fin 4 → Nat) a + S1x1x64x128.size a ≤ S24x12x64x128.size a
  inb_S24x12x64x128_S1x1x64x128_7_4_0_0 : ∀ a, (![7, 4, 0, 0] : Fin 4 → Nat) a + S1x1x64x128.size a ≤ S24x12x64x128.size a
  inb_S24x12x64x128_S1x1x64x128_7_5_0_0 : ∀ a, (![7, 5, 0, 0] : Fin 4 → Nat) a + S1x1x64x128.size a ≤ S24x12x64x128.size a
  inb_S24x12x64x128_S1x1x64x128_7_6_0_0 : ∀ a, (![7, 6, 0, 0] : Fin 4 → Nat) a + S1x1x64x128.size a ≤ S24x12x64x128.size a
  inb_S24x12x64x128_S1x1x64x128_7_7_0_0 : ∀ a, (![7, 7, 0, 0] : Fin 4 → Nat) a + S1x1x64x128.size a ≤ S24x12x64x128.size a
  inb_S24x12x64x128_S1x1x64x128_7_8_0_0 : ∀ a, (![7, 8, 0, 0] : Fin 4 → Nat) a + S1x1x64x128.size a ≤ S24x12x64x128.size a
  inb_S24x12x64x128_S1x1x64x128_7_9_0_0 : ∀ a, (![7, 9, 0, 0] : Fin 4 → Nat) a + S1x1x64x128.size a ≤ S24x12x64x128.size a
  inb_S24x12x64x128_S1x1x64x128_7_10_0_0 : ∀ a, (![7, 10, 0, 0] : Fin 4 → Nat) a + S1x1x64x128.size a ≤ S24x12x64x128.size a
  inb_S24x12x64x128_S1x1x64x128_7_11_0_0 : ∀ a, (![7, 11, 0, 0] : Fin 4 → Nat) a + S1x1x64x128.size a ≤ S24x12x64x128.size a
  inb_S24x12x64x128_S1x1x64x128_8_0_0_0 : ∀ a, (![8, 0, 0, 0] : Fin 4 → Nat) a + S1x1x64x128.size a ≤ S24x12x64x128.size a
  inb_S24x12x64x128_S1x1x64x128_8_1_0_0 : ∀ a, (![8, 1, 0, 0] : Fin 4 → Nat) a + S1x1x64x128.size a ≤ S24x12x64x128.size a
  inb_S24x12x64x128_S1x1x64x128_8_2_0_0 : ∀ a, (![8, 2, 0, 0] : Fin 4 → Nat) a + S1x1x64x128.size a ≤ S24x12x64x128.size a
  inb_S24x12x64x128_S1x1x64x128_8_3_0_0 : ∀ a, (![8, 3, 0, 0] : Fin 4 → Nat) a + S1x1x64x128.size a ≤ S24x12x64x128.size a
  inb_S24x12x64x128_S1x1x64x128_8_4_0_0 : ∀ a, (![8, 4, 0, 0] : Fin 4 → Nat) a + S1x1x64x128.size a ≤ S24x12x64x128.size a
  inb_S24x12x64x128_S1x1x64x128_8_5_0_0 : ∀ a, (![8, 5, 0, 0] : Fin 4 → Nat) a + S1x1x64x128.size a ≤ S24x12x64x128.size a
  inb_S24x12x64x128_S1x1x64x128_8_6_0_0 : ∀ a, (![8, 6, 0, 0] : Fin 4 → Nat) a + S1x1x64x128.size a ≤ S24x12x64x128.size a
  inb_S24x12x64x128_S1x1x64x128_8_7_0_0 : ∀ a, (![8, 7, 0, 0] : Fin 4 → Nat) a + S1x1x64x128.size a ≤ S24x12x64x128.size a
  inb_S24x12x64x128_S1x1x64x128_8_8_0_0 : ∀ a, (![8, 8, 0, 0] : Fin 4 → Nat) a + S1x1x64x128.size a ≤ S24x12x64x128.size a
  inb_S24x12x64x128_S1x1x64x128_8_9_0_0 : ∀ a, (![8, 9, 0, 0] : Fin 4 → Nat) a + S1x1x64x128.size a ≤ S24x12x64x128.size a
  inb_S24x12x64x128_S1x1x64x128_8_10_0_0 : ∀ a, (![8, 10, 0, 0] : Fin 4 → Nat) a + S1x1x64x128.size a ≤ S24x12x64x128.size a
  inb_S24x12x64x128_S1x1x64x128_8_11_0_0 : ∀ a, (![8, 11, 0, 0] : Fin 4 → Nat) a + S1x1x64x128.size a ≤ S24x12x64x128.size a
  inb_S24x12x64x128_S1x1x64x128_9_0_0_0 : ∀ a, (![9, 0, 0, 0] : Fin 4 → Nat) a + S1x1x64x128.size a ≤ S24x12x64x128.size a
  inb_S24x12x64x128_S1x1x64x128_9_1_0_0 : ∀ a, (![9, 1, 0, 0] : Fin 4 → Nat) a + S1x1x64x128.size a ≤ S24x12x64x128.size a
  inb_S24x12x64x128_S1x1x64x128_9_2_0_0 : ∀ a, (![9, 2, 0, 0] : Fin 4 → Nat) a + S1x1x64x128.size a ≤ S24x12x64x128.size a
  inb_S24x12x64x128_S1x1x64x128_9_3_0_0 : ∀ a, (![9, 3, 0, 0] : Fin 4 → Nat) a + S1x1x64x128.size a ≤ S24x12x64x128.size a
  inb_S24x12x64x128_S1x1x64x128_9_4_0_0 : ∀ a, (![9, 4, 0, 0] : Fin 4 → Nat) a + S1x1x64x128.size a ≤ S24x12x64x128.size a
  inb_S24x12x64x128_S1x1x64x128_9_5_0_0 : ∀ a, (![9, 5, 0, 0] : Fin 4 → Nat) a + S1x1x64x128.size a ≤ S24x12x64x128.size a
  inb_S24x12x64x128_S1x1x64x128_9_6_0_0 : ∀ a, (![9, 6, 0, 0] : Fin 4 → Nat) a + S1x1x64x128.size a ≤ S24x12x64x128.size a
  inb_S24x12x64x128_S1x1x64x128_9_7_0_0 : ∀ a, (![9, 7, 0, 0] : Fin 4 → Nat) a + S1x1x64x128.size a ≤ S24x12x64x128.size a
  inb_S24x12x64x128_S1x1x64x128_9_8_0_0 : ∀ a, (![9, 8, 0, 0] : Fin 4 → Nat) a + S1x1x64x128.size a ≤ S24x12x64x128.size a
  inb_S24x12x64x128_S1x1x64x128_9_9_0_0 : ∀ a, (![9, 9, 0, 0] : Fin 4 → Nat) a + S1x1x64x128.size a ≤ S24x12x64x128.size a
  inb_S24x12x64x128_S1x1x64x128_9_10_0_0 : ∀ a, (![9, 10, 0, 0] : Fin 4 → Nat) a + S1x1x64x128.size a ≤ S24x12x64x128.size a
  inb_S24x12x64x128_S1x1x64x128_9_11_0_0 : ∀ a, (![9, 11, 0, 0] : Fin 4 → Nat) a + S1x1x64x128.size a ≤ S24x12x64x128.size a
  inb_S24x12x64x128_S1x1x64x128_10_0_0_0 : ∀ a, (![10, 0, 0, 0] : Fin 4 → Nat) a + S1x1x64x128.size a ≤ S24x12x64x128.size a
  inb_S24x12x64x128_S1x1x64x128_10_1_0_0 : ∀ a, (![10, 1, 0, 0] : Fin 4 → Nat) a + S1x1x64x128.size a ≤ S24x12x64x128.size a
  inb_S24x12x64x128_S1x1x64x128_10_2_0_0 : ∀ a, (![10, 2, 0, 0] : Fin 4 → Nat) a + S1x1x64x128.size a ≤ S24x12x64x128.size a
  inb_S24x12x64x128_S1x1x64x128_10_3_0_0 : ∀ a, (![10, 3, 0, 0] : Fin 4 → Nat) a + S1x1x64x128.size a ≤ S24x12x64x128.size a
  inb_S24x12x64x128_S1x1x64x128_10_4_0_0 : ∀ a, (![10, 4, 0, 0] : Fin 4 → Nat) a + S1x1x64x128.size a ≤ S24x12x64x128.size a
  inb_S24x12x64x128_S1x1x64x128_10_5_0_0 : ∀ a, (![10, 5, 0, 0] : Fin 4 → Nat) a + S1x1x64x128.size a ≤ S24x12x64x128.size a
  inb_S24x12x64x128_S1x1x64x128_10_6_0_0 : ∀ a, (![10, 6, 0, 0] : Fin 4 → Nat) a + S1x1x64x128.size a ≤ S24x12x64x128.size a
  inb_S24x12x64x128_S1x1x64x128_10_7_0_0 : ∀ a, (![10, 7, 0, 0] : Fin 4 → Nat) a + S1x1x64x128.size a ≤ S24x12x64x128.size a
  inb_S24x12x64x128_S1x1x64x128_10_8_0_0 : ∀ a, (![10, 8, 0, 0] : Fin 4 → Nat) a + S1x1x64x128.size a ≤ S24x12x64x128.size a
  inb_S24x12x64x128_S1x1x64x128_10_9_0_0 : ∀ a, (![10, 9, 0, 0] : Fin 4 → Nat) a + S1x1x64x128.size a ≤ S24x12x64x128.size a
  inb_S24x12x64x128_S1x1x64x128_10_10_0_0 : ∀ a, (![10, 10, 0, 0] : Fin 4 → Nat) a + S1x1x64x128.size a ≤ S24x12x64x128.size a
  inb_S24x12x64x128_S1x1x64x128_10_11_0_0 : ∀ a, (![10, 11, 0, 0] : Fin 4 → Nat) a + S1x1x64x128.size a ≤ S24x12x64x128.size a
  inb_S24x12x64x128_S1x1x64x128_11_0_0_0 : ∀ a, (![11, 0, 0, 0] : Fin 4 → Nat) a + S1x1x64x128.size a ≤ S24x12x64x128.size a
  inb_S24x12x64x128_S1x1x64x128_11_1_0_0 : ∀ a, (![11, 1, 0, 0] : Fin 4 → Nat) a + S1x1x64x128.size a ≤ S24x12x64x128.size a
  inb_S24x12x64x128_S1x1x64x128_11_2_0_0 : ∀ a, (![11, 2, 0, 0] : Fin 4 → Nat) a + S1x1x64x128.size a ≤ S24x12x64x128.size a
  inb_S24x12x64x128_S1x1x64x128_11_3_0_0 : ∀ a, (![11, 3, 0, 0] : Fin 4 → Nat) a + S1x1x64x128.size a ≤ S24x12x64x128.size a
  inb_S24x12x64x128_S1x1x64x128_11_4_0_0 : ∀ a, (![11, 4, 0, 0] : Fin 4 → Nat) a + S1x1x64x128.size a ≤ S24x12x64x128.size a
  inb_S24x12x64x128_S1x1x64x128_11_5_0_0 : ∀ a, (![11, 5, 0, 0] : Fin 4 → Nat) a + S1x1x64x128.size a ≤ S24x12x64x128.size a
  inb_S24x12x64x128_S1x1x64x128_11_6_0_0 : ∀ a, (![11, 6, 0, 0] : Fin 4 → Nat) a + S1x1x64x128.size a ≤ S24x12x64x128.size a
  inb_S24x12x64x128_S1x1x64x128_11_7_0_0 : ∀ a, (![11, 7, 0, 0] : Fin 4 → Nat) a + S1x1x64x128.size a ≤ S24x12x64x128.size a
  inb_S24x12x64x128_S1x1x64x128_11_8_0_0 : ∀ a, (![11, 8, 0, 0] : Fin 4 → Nat) a + S1x1x64x128.size a ≤ S24x12x64x128.size a
  inb_S24x12x64x128_S1x1x64x128_11_9_0_0 : ∀ a, (![11, 9, 0, 0] : Fin 4 → Nat) a + S1x1x64x128.size a ≤ S24x12x64x128.size a
  inb_S24x12x64x128_S1x1x64x128_11_10_0_0 : ∀ a, (![11, 10, 0, 0] : Fin 4 → Nat) a + S1x1x64x128.size a ≤ S24x12x64x128.size a
  inb_S24x12x64x128_S1x1x64x128_11_11_0_0 : ∀ a, (![11, 11, 0, 0] : Fin 4 → Nat) a + S1x1x64x128.size a ≤ S24x12x64x128.size a
  inb_S24x12x64x128_S1x1x64x128_12_0_0_0 : ∀ a, (![12, 0, 0, 0] : Fin 4 → Nat) a + S1x1x64x128.size a ≤ S24x12x64x128.size a
  inb_S24x12x64x128_S1x1x64x128_12_1_0_0 : ∀ a, (![12, 1, 0, 0] : Fin 4 → Nat) a + S1x1x64x128.size a ≤ S24x12x64x128.size a
  inb_S24x12x64x128_S1x1x64x128_12_2_0_0 : ∀ a, (![12, 2, 0, 0] : Fin 4 → Nat) a + S1x1x64x128.size a ≤ S24x12x64x128.size a
  inb_S24x12x64x128_S1x1x64x128_12_3_0_0 : ∀ a, (![12, 3, 0, 0] : Fin 4 → Nat) a + S1x1x64x128.size a ≤ S24x12x64x128.size a
  inb_S24x12x64x128_S1x1x64x128_12_4_0_0 : ∀ a, (![12, 4, 0, 0] : Fin 4 → Nat) a + S1x1x64x128.size a ≤ S24x12x64x128.size a
  inb_S24x12x64x128_S1x1x64x128_12_5_0_0 : ∀ a, (![12, 5, 0, 0] : Fin 4 → Nat) a + S1x1x64x128.size a ≤ S24x12x64x128.size a
  inb_S24x12x64x128_S1x1x64x128_12_6_0_0 : ∀ a, (![12, 6, 0, 0] : Fin 4 → Nat) a + S1x1x64x128.size a ≤ S24x12x64x128.size a
  inb_S24x12x64x128_S1x1x64x128_12_7_0_0 : ∀ a, (![12, 7, 0, 0] : Fin 4 → Nat) a + S1x1x64x128.size a ≤ S24x12x64x128.size a
  inb_S24x12x64x128_S1x1x64x128_12_8_0_0 : ∀ a, (![12, 8, 0, 0] : Fin 4 → Nat) a + S1x1x64x128.size a ≤ S24x12x64x128.size a
  inb_S24x12x64x128_S1x1x64x128_12_9_0_0 : ∀ a, (![12, 9, 0, 0] : Fin 4 → Nat) a + S1x1x64x128.size a ≤ S24x12x64x128.size a
  inb_S24x12x64x128_S1x1x64x128_12_10_0_0 : ∀ a, (![12, 10, 0, 0] : Fin 4 → Nat) a + S1x1x64x128.size a ≤ S24x12x64x128.size a
  inb_S24x12x64x128_S1x1x64x128_12_11_0_0 : ∀ a, (![12, 11, 0, 0] : Fin 4 → Nat) a + S1x1x64x128.size a ≤ S24x12x64x128.size a
  inb_S24x12x64x128_S1x1x64x128_13_0_0_0 : ∀ a, (![13, 0, 0, 0] : Fin 4 → Nat) a + S1x1x64x128.size a ≤ S24x12x64x128.size a
  inb_S24x12x64x128_S1x1x64x128_13_1_0_0 : ∀ a, (![13, 1, 0, 0] : Fin 4 → Nat) a + S1x1x64x128.size a ≤ S24x12x64x128.size a
  inb_S24x12x64x128_S1x1x64x128_13_2_0_0 : ∀ a, (![13, 2, 0, 0] : Fin 4 → Nat) a + S1x1x64x128.size a ≤ S24x12x64x128.size a
  inb_S24x12x64x128_S1x1x64x128_13_3_0_0 : ∀ a, (![13, 3, 0, 0] : Fin 4 → Nat) a + S1x1x64x128.size a ≤ S24x12x64x128.size a
  inb_S24x12x64x128_S1x1x64x128_13_4_0_0 : ∀ a, (![13, 4, 0, 0] : Fin 4 → Nat) a + S1x1x64x128.size a ≤ S24x12x64x128.size a
  inb_S24x12x64x128_S1x1x64x128_13_5_0_0 : ∀ a, (![13, 5, 0, 0] : Fin 4 → Nat) a + S1x1x64x128.size a ≤ S24x12x64x128.size a
  inb_S24x12x64x128_S1x1x64x128_13_6_0_0 : ∀ a, (![13, 6, 0, 0] : Fin 4 → Nat) a + S1x1x64x128.size a ≤ S24x12x64x128.size a
  inb_S24x12x64x128_S1x1x64x128_13_7_0_0 : ∀ a, (![13, 7, 0, 0] : Fin 4 → Nat) a + S1x1x64x128.size a ≤ S24x12x64x128.size a
  inb_S24x12x64x128_S1x1x64x128_13_8_0_0 : ∀ a, (![13, 8, 0, 0] : Fin 4 → Nat) a + S1x1x64x128.size a ≤ S24x12x64x128.size a
  inb_S24x12x64x128_S1x1x64x128_13_9_0_0 : ∀ a, (![13, 9, 0, 0] : Fin 4 → Nat) a + S1x1x64x128.size a ≤ S24x12x64x128.size a
  inb_S24x12x64x128_S1x1x64x128_13_10_0_0 : ∀ a, (![13, 10, 0, 0] : Fin 4 → Nat) a + S1x1x64x128.size a ≤ S24x12x64x128.size a
  inb_S24x12x64x128_S1x1x64x128_13_11_0_0 : ∀ a, (![13, 11, 0, 0] : Fin 4 → Nat) a + S1x1x64x128.size a ≤ S24x12x64x128.size a
  inb_S24x12x64x128_S1x1x64x128_14_0_0_0 : ∀ a, (![14, 0, 0, 0] : Fin 4 → Nat) a + S1x1x64x128.size a ≤ S24x12x64x128.size a
  inb_S24x12x64x128_S1x1x64x128_14_1_0_0 : ∀ a, (![14, 1, 0, 0] : Fin 4 → Nat) a + S1x1x64x128.size a ≤ S24x12x64x128.size a
  inb_S24x12x64x128_S1x1x64x128_14_2_0_0 : ∀ a, (![14, 2, 0, 0] : Fin 4 → Nat) a + S1x1x64x128.size a ≤ S24x12x64x128.size a
  inb_S24x12x64x128_S1x1x64x128_14_3_0_0 : ∀ a, (![14, 3, 0, 0] : Fin 4 → Nat) a + S1x1x64x128.size a ≤ S24x12x64x128.size a
  inb_S24x12x64x128_S1x1x64x128_14_4_0_0 : ∀ a, (![14, 4, 0, 0] : Fin 4 → Nat) a + S1x1x64x128.size a ≤ S24x12x64x128.size a
  inb_S24x12x64x128_S1x1x64x128_14_5_0_0 : ∀ a, (![14, 5, 0, 0] : Fin 4 → Nat) a + S1x1x64x128.size a ≤ S24x12x64x128.size a
  inb_S24x12x64x128_S1x1x64x128_14_6_0_0 : ∀ a, (![14, 6, 0, 0] : Fin 4 → Nat) a + S1x1x64x128.size a ≤ S24x12x64x128.size a
  inb_S24x12x64x128_S1x1x64x128_14_7_0_0 : ∀ a, (![14, 7, 0, 0] : Fin 4 → Nat) a + S1x1x64x128.size a ≤ S24x12x64x128.size a
  inb_S24x12x64x128_S1x1x64x128_14_8_0_0 : ∀ a, (![14, 8, 0, 0] : Fin 4 → Nat) a + S1x1x64x128.size a ≤ S24x12x64x128.size a
  inb_S24x12x64x128_S1x1x64x128_14_9_0_0 : ∀ a, (![14, 9, 0, 0] : Fin 4 → Nat) a + S1x1x64x128.size a ≤ S24x12x64x128.size a
  inb_S24x12x64x128_S1x1x64x128_14_10_0_0 : ∀ a, (![14, 10, 0, 0] : Fin 4 → Nat) a + S1x1x64x128.size a ≤ S24x12x64x128.size a
  inb_S24x12x64x128_S1x1x64x128_14_11_0_0 : ∀ a, (![14, 11, 0, 0] : Fin 4 → Nat) a + S1x1x64x128.size a ≤ S24x12x64x128.size a
  inb_S24x12x64x128_S1x1x64x128_15_0_0_0 : ∀ a, (![15, 0, 0, 0] : Fin 4 → Nat) a + S1x1x64x128.size a ≤ S24x12x64x128.size a
  inb_S24x12x64x128_S1x1x64x128_15_1_0_0 : ∀ a, (![15, 1, 0, 0] : Fin 4 → Nat) a + S1x1x64x128.size a ≤ S24x12x64x128.size a
  inb_S24x12x64x128_S1x1x64x128_15_2_0_0 : ∀ a, (![15, 2, 0, 0] : Fin 4 → Nat) a + S1x1x64x128.size a ≤ S24x12x64x128.size a
  inb_S24x12x64x128_S1x1x64x128_15_3_0_0 : ∀ a, (![15, 3, 0, 0] : Fin 4 → Nat) a + S1x1x64x128.size a ≤ S24x12x64x128.size a
  inb_S24x12x64x128_S1x1x64x128_15_4_0_0 : ∀ a, (![15, 4, 0, 0] : Fin 4 → Nat) a + S1x1x64x128.size a ≤ S24x12x64x128.size a
  inb_S24x12x64x128_S1x1x64x128_15_5_0_0 : ∀ a, (![15, 5, 0, 0] : Fin 4 → Nat) a + S1x1x64x128.size a ≤ S24x12x64x128.size a
  inb_S24x12x64x128_S1x1x64x128_15_6_0_0 : ∀ a, (![15, 6, 0, 0] : Fin 4 → Nat) a + S1x1x64x128.size a ≤ S24x12x64x128.size a
  inb_S24x12x64x128_S1x1x64x128_15_7_0_0 : ∀ a, (![15, 7, 0, 0] : Fin 4 → Nat) a + S1x1x64x128.size a ≤ S24x12x64x128.size a
  inb_S24x12x64x128_S1x1x64x128_15_8_0_0 : ∀ a, (![15, 8, 0, 0] : Fin 4 → Nat) a + S1x1x64x128.size a ≤ S24x12x64x128.size a
  inb_S24x12x64x128_S1x1x64x128_15_9_0_0 : ∀ a, (![15, 9, 0, 0] : Fin 4 → Nat) a + S1x1x64x128.size a ≤ S24x12x64x128.size a
  inb_S24x12x64x128_S1x1x64x128_15_10_0_0 : ∀ a, (![15, 10, 0, 0] : Fin 4 → Nat) a + S1x1x64x128.size a ≤ S24x12x64x128.size a
  inb_S24x12x64x128_S1x1x64x128_15_11_0_0 : ∀ a, (![15, 11, 0, 0] : Fin 4 → Nat) a + S1x1x64x128.size a ≤ S24x12x64x128.size a
  inb_S24x12x64x128_S1x1x64x128_16_0_0_0 : ∀ a, (![16, 0, 0, 0] : Fin 4 → Nat) a + S1x1x64x128.size a ≤ S24x12x64x128.size a
  inb_S24x12x64x128_S1x1x64x128_16_1_0_0 : ∀ a, (![16, 1, 0, 0] : Fin 4 → Nat) a + S1x1x64x128.size a ≤ S24x12x64x128.size a
  inb_S24x12x64x128_S1x1x64x128_16_2_0_0 : ∀ a, (![16, 2, 0, 0] : Fin 4 → Nat) a + S1x1x64x128.size a ≤ S24x12x64x128.size a
  inb_S24x12x64x128_S1x1x64x128_16_3_0_0 : ∀ a, (![16, 3, 0, 0] : Fin 4 → Nat) a + S1x1x64x128.size a ≤ S24x12x64x128.size a
  inb_S24x12x64x128_S1x1x64x128_16_4_0_0 : ∀ a, (![16, 4, 0, 0] : Fin 4 → Nat) a + S1x1x64x128.size a ≤ S24x12x64x128.size a
  inb_S24x12x64x128_S1x1x64x128_16_5_0_0 : ∀ a, (![16, 5, 0, 0] : Fin 4 → Nat) a + S1x1x64x128.size a ≤ S24x12x64x128.size a
  inb_S24x12x64x128_S1x1x64x128_16_6_0_0 : ∀ a, (![16, 6, 0, 0] : Fin 4 → Nat) a + S1x1x64x128.size a ≤ S24x12x64x128.size a
  inb_S24x12x64x128_S1x1x64x128_16_7_0_0 : ∀ a, (![16, 7, 0, 0] : Fin 4 → Nat) a + S1x1x64x128.size a ≤ S24x12x64x128.size a
  inb_S24x12x64x128_S1x1x64x128_16_8_0_0 : ∀ a, (![16, 8, 0, 0] : Fin 4 → Nat) a + S1x1x64x128.size a ≤ S24x12x64x128.size a
  inb_S24x12x64x128_S1x1x64x128_16_9_0_0 : ∀ a, (![16, 9, 0, 0] : Fin 4 → Nat) a + S1x1x64x128.size a ≤ S24x12x64x128.size a
  inb_S24x12x64x128_S1x1x64x128_16_10_0_0 : ∀ a, (![16, 10, 0, 0] : Fin 4 → Nat) a + S1x1x64x128.size a ≤ S24x12x64x128.size a
  inb_S24x12x64x128_S1x1x64x128_16_11_0_0 : ∀ a, (![16, 11, 0, 0] : Fin 4 → Nat) a + S1x1x64x128.size a ≤ S24x12x64x128.size a
  inb_S24x12x64x128_S1x1x64x128_17_0_0_0 : ∀ a, (![17, 0, 0, 0] : Fin 4 → Nat) a + S1x1x64x128.size a ≤ S24x12x64x128.size a
  inb_S24x12x64x128_S1x1x64x128_17_1_0_0 : ∀ a, (![17, 1, 0, 0] : Fin 4 → Nat) a + S1x1x64x128.size a ≤ S24x12x64x128.size a
  inb_S24x12x64x128_S1x1x64x128_17_2_0_0 : ∀ a, (![17, 2, 0, 0] : Fin 4 → Nat) a + S1x1x64x128.size a ≤ S24x12x64x128.size a
  inb_S24x12x64x128_S1x1x64x128_17_3_0_0 : ∀ a, (![17, 3, 0, 0] : Fin 4 → Nat) a + S1x1x64x128.size a ≤ S24x12x64x128.size a
  inb_S24x12x64x128_S1x1x64x128_17_4_0_0 : ∀ a, (![17, 4, 0, 0] : Fin 4 → Nat) a + S1x1x64x128.size a ≤ S24x12x64x128.size a
  inb_S24x12x64x128_S1x1x64x128_17_5_0_0 : ∀ a, (![17, 5, 0, 0] : Fin 4 → Nat) a + S1x1x64x128.size a ≤ S24x12x64x128.size a
  inb_S24x12x64x128_S1x1x64x128_17_6_0_0 : ∀ a, (![17, 6, 0, 0] : Fin 4 → Nat) a + S1x1x64x128.size a ≤ S24x12x64x128.size a
  inb_S24x12x64x128_S1x1x64x128_17_7_0_0 : ∀ a, (![17, 7, 0, 0] : Fin 4 → Nat) a + S1x1x64x128.size a ≤ S24x12x64x128.size a
  inb_S24x12x64x128_S1x1x64x128_17_8_0_0 : ∀ a, (![17, 8, 0, 0] : Fin 4 → Nat) a + S1x1x64x128.size a ≤ S24x12x64x128.size a
  inb_S24x12x64x128_S1x1x64x128_17_9_0_0 : ∀ a, (![17, 9, 0, 0] : Fin 4 → Nat) a + S1x1x64x128.size a ≤ S24x12x64x128.size a
  inb_S24x12x64x128_S1x1x64x128_17_10_0_0 : ∀ a, (![17, 10, 0, 0] : Fin 4 → Nat) a + S1x1x64x128.size a ≤ S24x12x64x128.size a
  inb_S24x12x64x128_S1x1x64x128_17_11_0_0 : ∀ a, (![17, 11, 0, 0] : Fin 4 → Nat) a + S1x1x64x128.size a ≤ S24x12x64x128.size a
  inb_S24x12x64x128_S1x1x64x128_18_0_0_0 : ∀ a, (![18, 0, 0, 0] : Fin 4 → Nat) a + S1x1x64x128.size a ≤ S24x12x64x128.size a
  inb_S24x12x64x128_S1x1x64x128_18_1_0_0 : ∀ a, (![18, 1, 0, 0] : Fin 4 → Nat) a + S1x1x64x128.size a ≤ S24x12x64x128.size a
  inb_S24x12x64x128_S1x1x64x128_18_2_0_0 : ∀ a, (![18, 2, 0, 0] : Fin 4 → Nat) a + S1x1x64x128.size a ≤ S24x12x64x128.size a
  inb_S24x12x64x128_S1x1x64x128_18_3_0_0 : ∀ a, (![18, 3, 0, 0] : Fin 4 → Nat) a + S1x1x64x128.size a ≤ S24x12x64x128.size a
  inb_S24x12x64x128_S1x1x64x128_18_4_0_0 : ∀ a, (![18, 4, 0, 0] : Fin 4 → Nat) a + S1x1x64x128.size a ≤ S24x12x64x128.size a
  inb_S24x12x64x128_S1x1x64x128_18_5_0_0 : ∀ a, (![18, 5, 0, 0] : Fin 4 → Nat) a + S1x1x64x128.size a ≤ S24x12x64x128.size a
  inb_S24x12x64x128_S1x1x64x128_18_6_0_0 : ∀ a, (![18, 6, 0, 0] : Fin 4 → Nat) a + S1x1x64x128.size a ≤ S24x12x64x128.size a
  inb_S24x12x64x128_S1x1x64x128_18_7_0_0 : ∀ a, (![18, 7, 0, 0] : Fin 4 → Nat) a + S1x1x64x128.size a ≤ S24x12x64x128.size a
  inb_S24x12x64x128_S1x1x64x128_18_8_0_0 : ∀ a, (![18, 8, 0, 0] : Fin 4 → Nat) a + S1x1x64x128.size a ≤ S24x12x64x128.size a
  inb_S24x12x64x128_S1x1x64x128_18_9_0_0 : ∀ a, (![18, 9, 0, 0] : Fin 4 → Nat) a + S1x1x64x128.size a ≤ S24x12x64x128.size a
  inb_S24x12x64x128_S1x1x64x128_18_10_0_0 : ∀ a, (![18, 10, 0, 0] : Fin 4 → Nat) a + S1x1x64x128.size a ≤ S24x12x64x128.size a
  inb_S24x12x64x128_S1x1x64x128_18_11_0_0 : ∀ a, (![18, 11, 0, 0] : Fin 4 → Nat) a + S1x1x64x128.size a ≤ S24x12x64x128.size a
  inb_S24x12x64x128_S1x1x64x128_19_0_0_0 : ∀ a, (![19, 0, 0, 0] : Fin 4 → Nat) a + S1x1x64x128.size a ≤ S24x12x64x128.size a
  inb_S24x12x64x128_S1x1x64x128_19_1_0_0 : ∀ a, (![19, 1, 0, 0] : Fin 4 → Nat) a + S1x1x64x128.size a ≤ S24x12x64x128.size a
  inb_S24x12x64x128_S1x1x64x128_19_2_0_0 : ∀ a, (![19, 2, 0, 0] : Fin 4 → Nat) a + S1x1x64x128.size a ≤ S24x12x64x128.size a
  inb_S24x12x64x128_S1x1x64x128_19_3_0_0 : ∀ a, (![19, 3, 0, 0] : Fin 4 → Nat) a + S1x1x64x128.size a ≤ S24x12x64x128.size a
  inb_S24x12x64x128_S1x1x64x128_19_4_0_0 : ∀ a, (![19, 4, 0, 0] : Fin 4 → Nat) a + S1x1x64x128.size a ≤ S24x12x64x128.size a
  inb_S24x12x64x128_S1x1x64x128_19_5_0_0 : ∀ a, (![19, 5, 0, 0] : Fin 4 → Nat) a + S1x1x64x128.size a ≤ S24x12x64x128.size a
  inb_S24x12x64x128_S1x1x64x128_19_6_0_0 : ∀ a, (![19, 6, 0, 0] : Fin 4 → Nat) a + S1x1x64x128.size a ≤ S24x12x64x128.size a
  inb_S24x12x64x128_S1x1x64x128_19_7_0_0 : ∀ a, (![19, 7, 0, 0] : Fin 4 → Nat) a + S1x1x64x128.size a ≤ S24x12x64x128.size a
  inb_S24x12x64x128_S1x1x64x128_19_8_0_0 : ∀ a, (![19, 8, 0, 0] : Fin 4 → Nat) a + S1x1x64x128.size a ≤ S24x12x64x128.size a
  inb_S24x12x64x128_S1x1x64x128_19_9_0_0 : ∀ a, (![19, 9, 0, 0] : Fin 4 → Nat) a + S1x1x64x128.size a ≤ S24x12x64x128.size a
  inb_S24x12x64x128_S1x1x64x128_19_10_0_0 : ∀ a, (![19, 10, 0, 0] : Fin 4 → Nat) a + S1x1x64x128.size a ≤ S24x12x64x128.size a
  inb_S24x12x64x128_S1x1x64x128_19_11_0_0 : ∀ a, (![19, 11, 0, 0] : Fin 4 → Nat) a + S1x1x64x128.size a ≤ S24x12x64x128.size a
  inb_S24x12x64x128_S1x1x64x128_20_0_0_0 : ∀ a, (![20, 0, 0, 0] : Fin 4 → Nat) a + S1x1x64x128.size a ≤ S24x12x64x128.size a
  inb_S24x12x64x128_S1x1x64x128_20_1_0_0 : ∀ a, (![20, 1, 0, 0] : Fin 4 → Nat) a + S1x1x64x128.size a ≤ S24x12x64x128.size a
  inb_S24x12x64x128_S1x1x64x128_20_2_0_0 : ∀ a, (![20, 2, 0, 0] : Fin 4 → Nat) a + S1x1x64x128.size a ≤ S24x12x64x128.size a
  inb_S24x12x64x128_S1x1x64x128_20_3_0_0 : ∀ a, (![20, 3, 0, 0] : Fin 4 → Nat) a + S1x1x64x128.size a ≤ S24x12x64x128.size a
  inb_S24x12x64x128_S1x1x64x128_20_4_0_0 : ∀ a, (![20, 4, 0, 0] : Fin 4 → Nat) a + S1x1x64x128.size a ≤ S24x12x64x128.size a
  inb_S24x12x64x128_S1x1x64x128_20_5_0_0 : ∀ a, (![20, 5, 0, 0] : Fin 4 → Nat) a + S1x1x64x128.size a ≤ S24x12x64x128.size a
  inb_S24x12x64x128_S1x1x64x128_20_6_0_0 : ∀ a, (![20, 6, 0, 0] : Fin 4 → Nat) a + S1x1x64x128.size a ≤ S24x12x64x128.size a
  inb_S24x12x64x128_S1x1x64x128_20_7_0_0 : ∀ a, (![20, 7, 0, 0] : Fin 4 → Nat) a + S1x1x64x128.size a ≤ S24x12x64x128.size a
  inb_S24x12x64x128_S1x1x64x128_20_8_0_0 : ∀ a, (![20, 8, 0, 0] : Fin 4 → Nat) a + S1x1x64x128.size a ≤ S24x12x64x128.size a
  inb_S24x12x64x128_S1x1x64x128_20_9_0_0 : ∀ a, (![20, 9, 0, 0] : Fin 4 → Nat) a + S1x1x64x128.size a ≤ S24x12x64x128.size a
  inb_S24x12x64x128_S1x1x64x128_20_10_0_0 : ∀ a, (![20, 10, 0, 0] : Fin 4 → Nat) a + S1x1x64x128.size a ≤ S24x12x64x128.size a
  inb_S24x12x64x128_S1x1x64x128_20_11_0_0 : ∀ a, (![20, 11, 0, 0] : Fin 4 → Nat) a + S1x1x64x128.size a ≤ S24x12x64x128.size a
  inb_S24x12x64x128_S1x1x64x128_21_0_0_0 : ∀ a, (![21, 0, 0, 0] : Fin 4 → Nat) a + S1x1x64x128.size a ≤ S24x12x64x128.size a
  inb_S24x12x64x128_S1x1x64x128_21_1_0_0 : ∀ a, (![21, 1, 0, 0] : Fin 4 → Nat) a + S1x1x64x128.size a ≤ S24x12x64x128.size a
  inb_S24x12x64x128_S1x1x64x128_21_2_0_0 : ∀ a, (![21, 2, 0, 0] : Fin 4 → Nat) a + S1x1x64x128.size a ≤ S24x12x64x128.size a
  inb_S24x12x64x128_S1x1x64x128_21_3_0_0 : ∀ a, (![21, 3, 0, 0] : Fin 4 → Nat) a + S1x1x64x128.size a ≤ S24x12x64x128.size a
  inb_S24x12x64x128_S1x1x64x128_21_4_0_0 : ∀ a, (![21, 4, 0, 0] : Fin 4 → Nat) a + S1x1x64x128.size a ≤ S24x12x64x128.size a
  inb_S24x12x64x128_S1x1x64x128_21_5_0_0 : ∀ a, (![21, 5, 0, 0] : Fin 4 → Nat) a + S1x1x64x128.size a ≤ S24x12x64x128.size a
  inb_S24x12x64x128_S1x1x64x128_21_6_0_0 : ∀ a, (![21, 6, 0, 0] : Fin 4 → Nat) a + S1x1x64x128.size a ≤ S24x12x64x128.size a
  inb_S24x12x64x128_S1x1x64x128_21_7_0_0 : ∀ a, (![21, 7, 0, 0] : Fin 4 → Nat) a + S1x1x64x128.size a ≤ S24x12x64x128.size a
  inb_S24x12x64x128_S1x1x64x128_21_8_0_0 : ∀ a, (![21, 8, 0, 0] : Fin 4 → Nat) a + S1x1x64x128.size a ≤ S24x12x64x128.size a
  inb_S24x12x64x128_S1x1x64x128_21_9_0_0 : ∀ a, (![21, 9, 0, 0] : Fin 4 → Nat) a + S1x1x64x128.size a ≤ S24x12x64x128.size a
  inb_S24x12x64x128_S1x1x64x128_21_10_0_0 : ∀ a, (![21, 10, 0, 0] : Fin 4 → Nat) a + S1x1x64x128.size a ≤ S24x12x64x128.size a
  inb_S24x12x64x128_S1x1x64x128_21_11_0_0 : ∀ a, (![21, 11, 0, 0] : Fin 4 → Nat) a + S1x1x64x128.size a ≤ S24x12x64x128.size a
  inb_S24x12x64x128_S1x1x64x128_22_0_0_0 : ∀ a, (![22, 0, 0, 0] : Fin 4 → Nat) a + S1x1x64x128.size a ≤ S24x12x64x128.size a
  inb_S24x12x64x128_S1x1x64x128_22_1_0_0 : ∀ a, (![22, 1, 0, 0] : Fin 4 → Nat) a + S1x1x64x128.size a ≤ S24x12x64x128.size a
  inb_S24x12x64x128_S1x1x64x128_22_2_0_0 : ∀ a, (![22, 2, 0, 0] : Fin 4 → Nat) a + S1x1x64x128.size a ≤ S24x12x64x128.size a
  inb_S24x12x64x128_S1x1x64x128_22_3_0_0 : ∀ a, (![22, 3, 0, 0] : Fin 4 → Nat) a + S1x1x64x128.size a ≤ S24x12x64x128.size a
  inb_S24x12x64x128_S1x1x64x128_22_4_0_0 : ∀ a, (![22, 4, 0, 0] : Fin 4 → Nat) a + S1x1x64x128.size a ≤ S24x12x64x128.size a
  inb_S24x12x64x128_S1x1x64x128_22_5_0_0 : ∀ a, (![22, 5, 0, 0] : Fin 4 → Nat) a + S1x1x64x128.size a ≤ S24x12x64x128.size a
  inb_S24x12x64x128_S1x1x64x128_22_6_0_0 : ∀ a, (![22, 6, 0, 0] : Fin 4 → Nat) a + S1x1x64x128.size a ≤ S24x12x64x128.size a
  inb_S24x12x64x128_S1x1x64x128_22_7_0_0 : ∀ a, (![22, 7, 0, 0] : Fin 4 → Nat) a + S1x1x64x128.size a ≤ S24x12x64x128.size a
  inb_S24x12x64x128_S1x1x64x128_22_8_0_0 : ∀ a, (![22, 8, 0, 0] : Fin 4 → Nat) a + S1x1x64x128.size a ≤ S24x12x64x128.size a
  inb_S24x12x64x128_S1x1x64x128_22_9_0_0 : ∀ a, (![22, 9, 0, 0] : Fin 4 → Nat) a + S1x1x64x128.size a ≤ S24x12x64x128.size a
  inb_S24x12x64x128_S1x1x64x128_22_10_0_0 : ∀ a, (![22, 10, 0, 0] : Fin 4 → Nat) a + S1x1x64x128.size a ≤ S24x12x64x128.size a
  inb_S24x12x64x128_S1x1x64x128_22_11_0_0 : ∀ a, (![22, 11, 0, 0] : Fin 4 → Nat) a + S1x1x64x128.size a ≤ S24x12x64x128.size a
  inb_S24x12x64x128_S1x1x64x128_23_0_0_0 : ∀ a, (![23, 0, 0, 0] : Fin 4 → Nat) a + S1x1x64x128.size a ≤ S24x12x64x128.size a
  inb_S24x12x64x128_S1x1x64x128_23_1_0_0 : ∀ a, (![23, 1, 0, 0] : Fin 4 → Nat) a + S1x1x64x128.size a ≤ S24x12x64x128.size a
  inb_S24x12x64x128_S1x1x64x128_23_2_0_0 : ∀ a, (![23, 2, 0, 0] : Fin 4 → Nat) a + S1x1x64x128.size a ≤ S24x12x64x128.size a
  inb_S24x12x64x128_S1x1x64x128_23_3_0_0 : ∀ a, (![23, 3, 0, 0] : Fin 4 → Nat) a + S1x1x64x128.size a ≤ S24x12x64x128.size a
  inb_S24x12x64x128_S1x1x64x128_23_4_0_0 : ∀ a, (![23, 4, 0, 0] : Fin 4 → Nat) a + S1x1x64x128.size a ≤ S24x12x64x128.size a
  inb_S24x12x64x128_S1x1x64x128_23_5_0_0 : ∀ a, (![23, 5, 0, 0] : Fin 4 → Nat) a + S1x1x64x128.size a ≤ S24x12x64x128.size a
  inb_S24x12x64x128_S1x1x64x128_23_6_0_0 : ∀ a, (![23, 6, 0, 0] : Fin 4 → Nat) a + S1x1x64x128.size a ≤ S24x12x64x128.size a
  inb_S24x12x64x128_S1x1x64x128_23_7_0_0 : ∀ a, (![23, 7, 0, 0] : Fin 4 → Nat) a + S1x1x64x128.size a ≤ S24x12x64x128.size a
  inb_S24x12x64x128_S1x1x64x128_23_8_0_0 : ∀ a, (![23, 8, 0, 0] : Fin 4 → Nat) a + S1x1x64x128.size a ≤ S24x12x64x128.size a
  inb_S24x12x64x128_S1x1x64x128_23_9_0_0 : ∀ a, (![23, 9, 0, 0] : Fin 4 → Nat) a + S1x1x64x128.size a ≤ S24x12x64x128.size a
  inb_S24x12x64x128_S1x1x64x128_23_10_0_0 : ∀ a, (![23, 10, 0, 0] : Fin 4 → Nat) a + S1x1x64x128.size a ≤ S24x12x64x128.size a
  inb_S24x12x64x128_S1x1x64x128_23_11_0_0 : ∀ a, (![23, 11, 0, 0] : Fin 4 → Nat) a + S1x1x64x128.size a ≤ S24x12x64x128.size a
  shapeCasts_S64x96_S1x64x96 : S64x96.ShapeCasts S1x64x96
  concatenates_S1x64x96_S1x64x96_S1x64x96_S1x64x96_S1x64x96_S1x64x96_S1x64x96_S1x64x96_S1x64x96_S1x64x96_S1x64x96_S1x64x96_S1x64x96_S1x64x96_S1x64x96_S1x64x96_S1x64x96_S1x64x96_S1x64x96_S1x64x96_S1x64x96_S1x64x96_S1x64x96_S1x64x96_S24x64x96_d0 : Shape.Concatenates [S1x64x96, S1x64x96, S1x64x96, S1x64x96, S1x64x96, S1x64x96, S1x64x96, S1x64x96, S1x64x96, S1x64x96, S1x64x96, S1x64x96, S1x64x96, S1x64x96, S1x64x96, S1x64x96, S1x64x96, S1x64x96, S1x64x96, S1x64x96, S1x64x96, S1x64x96, S1x64x96, S1x64x96] S24x64x96 0
  transposes_S24x64x96_p1_0_2_S64x24x96 : S24x64x96.Transposes [1, 0, 2] S64x24x96
  inb_S64x24x96_S64x24x96_0_0_0 : ∀ a, (![0, 0, 0] : Fin 3 → Nat) a + S64x24x96.size a ≤ S64x24x96.size a
  h_S64x24x96 : 0 < S64x24x96.numel
  dot_S64x128_S128x96_S64x96_1_0_0_1_n_n_wf : DotDims.WF S64x128 S128x96 S64x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S24x12x64x128.size a < S321x12x64x128.size a
  hwx0_0 : ∀ i : grid0.Coords, EltTy.bits .f32 = 32 ∨ (Rect.unit (s := S321x12x64x128) (fun a => cc0_transform_0 i a * S24x12x64x128.size a) (fun a => (Pipeline.Clip.of (cc0_transform_0 i a) (S24x12x64x128.size a) (S321x12x64x128.size a)).extent (S24x12x64x128.size a)) fun a => Pipeline.Clip.inb (Pipeline.Clip.ok_of (hstart0_0 i a))).WholeWords (EltTy.packing .f32)
  hwxs0_0 : ∀ i : grid0.Coords, EltTy.bits .f32 = 32 ∨ (Rect.unit (s := S24x12x64x128) (fun _ => 0) (fun a => (Pipeline.Clip.of (cc0_transform_0 i a) (S24x12x64x128.size a) (S321x12x64x128.size a)).extent (S24x12x64x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S24x12x64x128.size a < S321x12x64x128.size a
  hwx0_1 : ∀ i : grid0.Coords, EltTy.bits .f32 = 32 ∨ (Rect.unit (s := S321x12x64x128) (fun a => cc0_transform_1 i a * S24x12x64x128.size a) (fun a => (Pipeline.Clip.of (cc0_transform_1 i a) (S24x12x64x128.size a) (S321x12x64x128.size a)).extent (S24x12x64x128.size a)) fun a => Pipeline.Clip.inb (Pipeline.Clip.ok_of (hstart0_1 i a))).WholeWords (EltTy.packing .f32)
  hwxs0_1 : ∀ i : grid0.Coords, EltTy.bits .f32 = 32 ∨ (Rect.unit (s := S24x12x64x128) (fun _ => 0) (fun a => (Pipeline.Clip.of (cc0_transform_1 i a) (S24x12x64x128.size a) (S321x12x64x128.size a)).extent (S24x12x64x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S12x128x96.size a ≤ S12x128x96.size a
  hwx0_2 : ∀ i : grid0.Coords, EltTy.bits .f32 = 32 ∨ (Rect.block (s := S12x128x96) S12x128x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S12x128x96.size a ≤ S12x128x96.size a
  hwx0_3 : ∀ i : grid0.Coords, EltTy.bits .f32 = 32 ∨ (Rect.block (s := S12x128x96) S12x128x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x96.size a ≤ S1x96.size a
  hwx0_4 : ∀ i : grid0.Coords, EltTy.bits .f32 = 32 ∨ (Rect.block (s := S1x96) S1x96.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S64x24x96.size a < S64x321x96.size a
  hwx0_5 : ∀ i : grid0.Coords, EltTy.bits .f32 = 32 ∨ (Rect.unit (s := S64x321x96) (fun a => cc0_transform_5 i a * S64x24x96.size a) (fun a => (Pipeline.Clip.of (cc0_transform_5 i a) (S64x24x96.size a) (S64x321x96.size a)).extent (S64x24x96.size a)) fun a => Pipeline.Clip.inb (Pipeline.Clip.ok_of (hstart0_5 i a))).WholeWords (EltTy.packing .f32)
  hwxs0_5 : ∀ i : grid0.Coords, EltTy.bits .f32 = 32 ∨ (Rect.unit (s := S64x24x96) (fun _ => 0) (fun a => (Pipeline.Clip.of (cc0_transform_5 i a) (S64x24x96.size a) (S64x321x96.size a)).extent (S64x24x96.size a)) fun a => (Nat.zero_add _).trans_le (Pipeline.Clip.extent_le (Pipeline.Clip.ok_of (hstart0_5 i a)))).WholeWords (EltTy.packing .f32)

variable [Facts₀]

def dot_S64x128_S128x96_S64x96_1_0_0_1_n_n : DotDims S64x128 S128x96 S64x96 where
  lhsContracting := [1]
  rhsContracting := [0]
  lhsNonContracting := [0]
  rhsNonContracting := [1]
  lhsBatch := []
  rhsBatch := []
  wf := dot_S64x128_S128x96_S64x96_1_0_0_1_n_n_wf

abbrev win0_0 : Pipeline.Window sig grid0 :=
  Pipeline.Window.ofSpecClip (Memref.whole main_v0) S24x12x64x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v1) S24x12x64x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v4) S12x128x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S12x128x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpecClip (Memref.whole main_v9) S64x24x96.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x321x128x12 : Shape := ⟨4, ![64, 321, 128, 12]⟩
abbrev S96x3072 : Shape := ⟨2, ![96, 3072]⟩
abbrev S96 : Shape := ⟨1, ![96]⟩
abbrev S64x321x256x12 : Shape := ⟨4, ![64, 321, 256, 12]⟩
abbrev S64x321x3072 : Shape := ⟨3, ![64, 321, 3072]⟩
abbrev S64x321x96 : Shape := ⟨3, ![64, 321, 96]⟩
abbrev S1x1x96 : Shape := ⟨3, ![1, 1, 96]⟩

abbrev nBuf : Space → Nat
  | .hbm => 10
  | .vmem => 0
  | .smem => 0
  | _ => 0

abbrev bufTy : (tb : Table) → Fin (tcTables nBuf tb) → BufTy
  | .hbm, ⟨0, _⟩ => ⟨S64x321x128x12, .f32⟩
  | .hbm, ⟨1, _⟩ => ⟨S64x321x128x12, .f32⟩
  | .hbm, ⟨2, _⟩ => ⟨S96x3072, .f32⟩
  | .hbm, ⟨3, _⟩ => ⟨S96, .f32⟩
  | .hbm, ⟨4, _⟩ => ⟨S64x321x256x12, .f32⟩
  | .hbm, ⟨5, _⟩ => ⟨S64x321x3072, .f32⟩
  | .hbm, ⟨6, _⟩ => ⟨S64x321x96, .f32⟩
  | .hbm, ⟨7, _⟩ => ⟨S1x1x96, .f32⟩
  | .hbm, ⟨8, _⟩ => ⟨S64x321x96, .f32⟩
  | .hbm, ⟨9, _⟩ => ⟨S64x321x96, .f32⟩
  | _, _ => ⟨S64x321x128x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  concatenates_S64x321x128x12_S64x321x128x12_S64x321x256x12_d2 : Shape.Concatenates [S64x321x128x12, S64x321x128x12] S64x321x256x12 2
  shapeCasts_S64x321x256x12_S64x321x3072 : S64x321x256x12.ShapeCasts S64x321x3072
  bcast_S96_S1x1x96_2 : S96.BroadcastsInDim S1x1x96 (![2] : Fin 1 → Fin S1x1x96.rank)
  bcast_S1x1x96_S64x321x96_0_1_2 : S1x1x96.BroadcastsInDim S64x321x96 (![0, 1, 2] : Fin 3 → Fin S64x321x96.rank)
  dot_S64x321x3072_S96x3072_S64x321x96_2_1_01_0_n_n_wf : DotDims.WF S64x321x3072 S96x3072 S64x321x96 [2] [1] [0, 1] [0] [] []

variable [Facts₀]

def dot_S64x321x3072_S96x3072_S64x321x96_2_1_01_0_n_n : DotDims S64x321x3072 S96x3072 S64x321x96 where
  lhsContracting := [2]
  rhsContracting := [1]
  lhsNonContracting := [0, 1]
  rhsNonContracting := [0]
  lhsBatch := []
  rhsBatch := []
  wf := dot_S64x321x3072_S96x3072_S64x321x96_2_1_01_0_n_n_wf

class Facts : Prop extends Facts₀ where

variable [Facts]
-- ==== Proof.HeadRunBits.lean ====
/-
  The kernel body's run, once, at symbolic staging contents and any float instance: from the five input
  staging buffers held whole at contents x0 … x4 and the result's staging buffer at anything, the body — 1152 loads of
  (64, 128) and (128, 96) slabs, 576 products accumulated onto the broadcast bias row in 24 chains, one whole store of the
  stacked and transposed chains — runs to its return with the inputs as they were and the result's buffer holding the
  one piece the store wrote. The piece is the witness the run finds; its value is read elsewhere.
-/
import proofs.«117278_g18296560681217_cont_8to1_896_17_alg».proof.Proof.Gen.Kernel.Skeleton
import proofs.«117278_g18296560681217_cont_8to1_896_17_alg».proof.Proof.Gen.Kernel.Launch
import Idealize.ShloMosaic.Lib.Pipeline.FrameBody
import Idealize.ShloMosaic.Lib.Tactic

set_option maxRecDepth 16384

noncomputable section

namespace Cert.Kernel.Head

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- What the body's one store leaves in the result's staging memref, as a list of pieces, with the proof that on whole
    staging memrefs — the inputs' at their contents, the result's at anything — the body runs to the continuation
    holding the inputs' as they were and the result's buffer with that piece written. -/
noncomputable def kernelRun (c : Dev nD) (i : grid0.Coords)
    (arg1 : Memref sig .tc .vmem S24x12x64x128 .f32) (harg1 : arg1.IsWhole)
    (arg2 : Memref sig .tc .vmem S24x12x64x128 .f32) (harg2 : arg2.IsWhole)
    (arg3 : Memref sig .tc .vmem S12x128x96 .f32) (harg3 : arg3.IsWhole)
    (arg4 : Memref sig .tc .vmem S12x128x96 .f32) (harg4 : arg4.IsWhole)
    (arg5 : Memref sig .tc .vmem S1x96 .f32) (harg5 : arg5.IsWhole)
    (arg6 : Memref sig .tc .vmem S64x24x96 .f32) (harg6 : arg6.IsWhole)
    (x0 x1 : Vec F S24x12x64x128 .f32) (x2 x3 : Vec F S12x128x96 .f32) (x4 : Vec F S1x96 .f32) :
    { L : List (View.Piece (Elt F) S64x24x96 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ (∃ d, owns (c : Thread nD τ) arg6 fullShare d)
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ owns (c : Thread nD τ) arg5 fullShare x4
                ∗ (∃ f, arg6.view.loc (c : Thread nD τ) ↦[arg6.view.set]{fullShare} arg6.view.writes (Elt F) f L)) -∗ K ⟨⟩))
          ⊢ wp frame (wpE (defs₀ (F := F)) Variants.none c none) E
              (cc0__head_kernel i arg1 harg1 arg2 harg2 arg3 harg3 arg4 harg4 arg5 harg5 arg6 harg6) K } := by
  refine ⟨?_, fun E K => ?run⟩
  case run =>
    simp only [cc0__head_kernel_eq_skeleton]; unfold cc0__head_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0
    obtain rfl := harg2.eq_unread hf1
    obtain rfl := harg3.eq_unread hf2
    obtain rfl := harg4.eq_unread hf3
    obtain rfl := harg5.eq_unread hf4
    sl_exec_parts
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.Kernel.Head

end
-- ==== Proof.HeadShapeBits.lean ====
/-
  What the body's one store holds, as a structured term at any float instance. A staged activation block x is read
  slab by slab: slab (v, p) is the (64, 128) matrix x[v, p, :, :]; a staged weight block w slab by slab: slab p is the
  (128, 96) matrix w[p, :, :]. For each of the 24 rows v of the block the body starts from the bias row broadcast over
  64 lanes and adds, for p = 0 … 11 in turn, slab (v, p) of the first activation times slab p of the first weight, then
  slab (v, p) of the second activation times slab p of the second weight: acc v. The 24 accumulators are stacked along a
  new leading axis and the first two axes are swapped: entry (b, v, t) of the result is entry (b, t) of acc v. So row v
  of the result depends on rows v of the two activation blocks only.
-/
import proofs.«117278_g18296560681217_cont_8to1_896_17_alg».proof.Proof.HeadRunBits
import Idealize.ShloMosaic.Lib.Pipeline.Value
import Idealize.ShloMosaic.Lib.ValueIdx

set_option maxRecDepth 65536

noncomputable section

namespace Cert.Kernel.Head

open Cert.Kernel Cert.Kernel.Gen
open Idealize.ShloMosaic Idealize.ShloMosaic.TcCoe Idealize.ShloMosaic.Tactic
open Idealize.SL Idealize.SL.Sem
open Idealize.ShloMosaic.ValueIdx

variable {F : FTy → Type} [FloatOps F]

theorem inbX (v : Fin 24) (p : Fin 12) : ∀ a, (![v.val, p.val, 0, 0] : Fin 4 → Nat) a + S1x1x64x128.size a ≤ S24x12x64x128.size a := by
  intro a; have := v.isLt; have := p.isLt
  fin_cases a <;> simp <;> omega

theorem inbW (p : Fin 12) : ∀ a, (![p.val, 0, 0] : Fin 3 → Nat) a + S1x128x96.size a ≤ S12x128x96.size a := by
  intro a; have := p.isLt
  fin_cases a <;> simp <;> omega

/-- Slab (v, p) of a staged activation block, as a (64, 128) matrix. -/
def slabX (x : Vec F S24x12x64x128 .f32) (v : Fin 24) (p : Fin 12) : FVec F S64x128 .f32 :=
  shapeCast S64x128 (View.ld x (Rect.unit (s := S24x12x64x128) ![v.val, p.val, 0, 0] S1x1x64x128.size (inbX v p))) shapeCasts_S1x1x64x128_S64x128

/-- Slab p of a staged weight block, as a (128, 96) matrix. -/
def slabW (w : Vec F S12x128x96 .f32) (p : Fin 12) : FVec F S128x96 .f32 :=
  shapeCast S128x96 (View.ld w (Rect.unit (s := S12x128x96) ![p.val, 0, 0] S1x128x96.size (inbW p))) shapeCasts_S1x128x96_S128x96

/-- The staged bias row over the 64 lanes. -/
def biasRows (x4 : Vec F S1x96 .f32) : FVec F S64x96 .f32 :=
  broadcastTo S64x96 (shapeCast S1x96 (shapeCast S1x96 (View.ld x4 (Rect.unit (s := S1x96) ![0, 0] S1x96.size inb_S1x96_S1x96_0_0)) shapeCasts_S1x96_S1x96) shapeCasts_S1x96_S1x96) broadcasts_S1x96_S64x96

/-- One (64, 128) by (128, 96) product into zero. -/
def mm (a : FVec F S64x128 .f32) (w : FVec F S128x96 .f32) : FVec F S64x96 .f32 :=
  matmul dot_S64x128_S128x96_S64x96_1_0_0_1_n_n none a w (constant S64x96 .f32 0x00000000#32)

/-- One step of the accumulation of row v: the two products of patch p added in turn. -/
def step (x0 x1 : Vec F S24x12x64x128 .f32) (x2 x3 : Vec F S12x128x96 .f32) (v : Fin 24) (a : FVec F S64x96 .f32) (p : Fin 12) : FVec F S64x96 .f32 :=
  addf (addf a (mm (slabX x0 v p) (slabW x2 p))) (mm (slabX x1 v p) (slabW x3 p))

/-- Row v's accumulator: the bias rows, then the twelve steps in order. -/
def acc (x0 x1 : Vec F S24x12x64x128 .f32) (x2 x3 : Vec F S12x128x96 .f32) (x4 : Vec F S1x96 .f32) (v : Fin 24) : FVec F S64x96 .f32 :=
  List.foldl (step x0 x1 x2 x3 v) (biasRows x4) [0, 1, 2, 3, 4, 5, 6, 7, 8, 9, 10, 11]

theorem stackedShape {α : Type} (f : Fin 24 → (S1x64x96.Idx → α)) :
    Shape.Concatenates ((List.ofFn fun v : Fin 24 => (⟨S1x64x96, f v⟩ : (s : Shape) × (s.Idx → α))).map (·.1)) S24x64x96 0 := by
  rw [List.map_ofFn]
  exact (by decide : Shape.Concatenates (List.ofFn fun _ : Fin 24 => S1x64x96) S24x64x96 0)

/-- The 24 accumulators stacked along a new leading axis. -/
def stacked (x0 x1 : Vec F S24x12x64x128 .f32) (x2 x3 : Vec F S12x128x96 .f32) (x4 : Vec F S1x96 .f32) : FVec F S24x64x96 .f32 :=
  concatenate S24x64x96 0 (List.ofFn fun v : Fin 24 => (⟨S1x64x96, shapeCast S1x64x96 (acc x0 x1 x2 x3 x4 v) shapeCasts_S64x96_S1x64x96⟩ : (s : Shape) × (s.Idx → F .f32)))
    (stackedShape _)

/-- The stored value: the stack with its first two axes swapped. -/
def headOut (x0 x1 : Vec F S24x12x64x128 .f32) (x2 x3 : Vec F S12x128x96 .f32) (x4 : Vec F S1x96 .f32) : FVec F S64x24x96 .f32 :=
  transpose S64x24x96 [1, 0, 2] (stacked x0 x1 x2 x3 x4) transposes_S24x64x96_p1_0_2_S64x24x96

set_option maxHeartbeats 4000000 in
/-- The run's witness is the one whole piece holding that value: the run's names opened, each load off a whole
    memref the contents through its rectangle, and the two terms the same by unfolding. -/
theorem pieces_eq (c : Dev nD) (i : grid0.Coords)
    (arg1 : Memref sig .tc .vmem S24x12x64x128 .f32) (harg1 : arg1.IsWhole)
    (arg2 : Memref sig .tc .vmem S24x12x64x128 .f32) (harg2 : arg2.IsWhole)
    (arg3 : Memref sig .tc .vmem S12x128x96 .f32) (harg3 : arg3.IsWhole)
    (arg4 : Memref sig .tc .vmem S12x128x96 .f32) (harg4 : arg4.IsWhole)
    (arg5 : Memref sig .tc .vmem S1x96 .f32) (harg5 : arg5.IsWhole)
    (arg6 : Memref sig .tc .vmem S64x24x96 .f32) (harg6 : arg6.IsWhole)
    (x0 x1 : Vec F S24x12x64x128 .f32) (x2 x3 : Vec F S12x128x96 .f32) (x4 : Vec F S1x96 .f32) :
    (kernelRun c i arg1 harg1 arg2 harg2 arg3 harg3 arg4 harg4 arg5 harg5 arg6 harg6 x0 x1 x2 x3 x4).1
      = [⟨Rect.unit (s := S64x24x96) ![0, 0, 0] S64x24x96.size inb_S64x24x96_S64x24x96_0_0_0, headOut x0 x1 x2 x3 x4⟩] := by
  unfold kernelRun
  dsimp only
  sl_unfold_words
  simp only [View.readAt_eq_ld, harg1.read_unread, harg2.read_unread, harg3.read_unread, harg4.read_unread, harg5.read_unread]
  rfl

/-- Entry (b, v, t) of the stored value is entry (b, t) of row v's accumulator. -/
theorem headOut_apply (x0 x1 : Vec F S24x12x64x128 .f32) (x2 x3 : Vec F S12x128x96 .f32) (x4 : Vec F S1x96 .f32)
    (b : Fin 64) (v : Fin 24) (t : Fin 96) :
    headOut x0 x1 x2 x3 x4 (ix3 b v t) = acc x0 x1 x2 x3 x4 v (ix2 b t) := by
  unfold headOut
  rw [transpose_apply [1, 0, 2] _ transposes_S24x64x96_p1_0_2_S64x24x96 (ix3 b v t) (ix3 v b t)
    (fun a => by match a with | ⟨0, _⟩ => rfl | ⟨1, _⟩ => rfl | ⟨2, _⟩ => rfl)]
  unfold stacked
  rw [concatenate_ofFn_unit_apply (t := S24x64x96) (s₁ := S1x64x96) 0
    (fun v : Fin 24 => shapeCast S1x64x96 (acc x0 x1 x2 x3 x4 v) shapeCasts_S64x96_S1x64x96) (stackedShape _) rfl rfl
    (ix3 v b t) v rfl (ix3 (0 : Fin 1) b t)
    (fun a ha => by match a with | ⟨0, _⟩ => exact absurd rfl ha | ⟨1, _⟩ => rfl | ⟨2, _⟩ => rfl)]
  exact shapeCast_apply _ shapeCasts_S64x96_S1x64x96 (ix3 (0 : Fin 1) b t) (ix2 b t)
    (by rw [Shape.rowMajor_val_two, Shape.rowMajor_val_three]; show b.val * 96 + t.val = (0 * 64 + b.val) * 96 + t.val; omega)

/-- Row v's accumulator reads rows v of the activation blocks only. -/
theorem acc_congr {x0 x0' x1 x1' : Vec F S24x12x64x128 .f32} (x2 x3 : Vec F S12x128x96 .f32) (x4 : Vec F S1x96 .f32) (v : Fin 24)
    (h0 : ∀ p, slabX x0 v p = slabX x0' v p) (h1 : ∀ p, slabX x1 v p = slabX x1' v p) :
    acc x0 x1 x2 x3 x4 v = acc x0' x1' x2 x3 x4 v := by
  unfold acc step
  simp only [h0, h1]

/-- A slab is its block's entries with the row and the patch fixed. -/
theorem slabX_apply (x : Vec F S24x12x64x128 .f32) (v : Fin 24) (p : Fin 12) (b : Fin 64) (d : Fin 128) :
    slabX x v p (ix2 b d) = x (ix4 v p b d) := by
  unfold slabX
  rw [shapeCast_apply _ shapeCasts_S1x1x64x128_S64x128 (ix2 b d) (ix4 (0 : Fin 1) (0 : Fin 1) b d)
    (by rw [Shape.rowMajor_val_two, Shape.rowMajor_val_four]; show ((0 * 1 + 0) * 64 + b.val) * 128 + d.val = b.val * 128 + d.val; omega)]
  show x _ = x _
  refine congrArg x (funext fun a => Fin.ext ?_)
  match a with
  | ⟨0, _⟩ => show v.val + 1 * 0 = v.val; omega
  | ⟨1, _⟩ => show p.val + 1 * 0 = p.val; omega
  | ⟨2, _⟩ => show 0 + 1 * b.val = b.val; omega
  | ⟨3, _⟩ => show 0 + 1 * d.val = d.val; omega

theorem slabW_apply (w : Vec F S12x128x96 .f32) (p : Fin 12) (d : Fin 128) (t : Fin 96) :
    slabW w p (ix2 d t) = w (ix3 p d t) := by
  unfold slabW
  rw [shapeCast_apply _ shapeCasts_S1x128x96_S128x96 (ix2 d t) (ix3 (0 : Fin 1) d t)
    (by rw [Shape.rowMajor_val_two, Shape.rowMajor_val_three]; show (0 * 128 + d.val) * 96 + t.val = d.val * 96 + t.val; omega)]
  show w _ = w _
  refine congrArg w (funext fun a => Fin.ext ?_)
  match a with
  | ⟨0, _⟩ => show p.val + 1 * 0 = p.val; omega
  | ⟨1, _⟩ => show 0 + 1 * d.val = d.val; omega
  | ⟨2, _⟩ => show 0 + 1 * t.val = t.val; omega

/-- Blocks that agree on row v have the same slabs of row v. -/
theorem slabX_congr {x x' : Vec F S24x12x64x128 .f32} (v : Fin 24)
    (h : ∀ (p : Fin 12) (b : Fin 64) (d : Fin 128), x (ix4 v p b d) = x' (ix4 v p b d)) (p : Fin 12) :
    slabX x v p = slabX x' v p := by
  funext j
  obtain ⟨b, d, rfl⟩ : ∃ (b : Fin 64) (d : Fin 128), j = ix2 b d := ⟨j 0, j 1, eq_ix2 j⟩
  rw [slabX_apply, slabX_apply, h]

theorem biasRows_apply (x4 : Vec F S1x96 .f32) (b : Fin 64) (t : Fin 96) :
    biasRows x4 (ix2 b t) = x4 (ix2 (0 : Fin 1) t) := by
  unfold biasRows
  rw [broadcastTo_apply _ broadcasts_S1x96_S64x96 (ix2 b t) (ix2 (0 : Fin 1) t)
    (fun a => by match a with
      | ⟨0, _⟩ => show (0 : Nat) = if (1 : Nat) = 1 then 0 else b.val; rw [if_pos rfl]
      | ⟨1, _⟩ => show t.val = if (96 : Nat) = 1 then 0 else t.val; rw [if_neg (by decide)]),
    shapeCast_self]
  rw [shapeCast_apply _ shapeCasts_S1x96_S1x96 (ix2 (0 : Fin 1) t) (ix2 (0 : Fin 1) t) rfl]
  show x4 _ = x4 _
  refine congrArg x4 (funext fun a => Fin.ext ?_)
  match a with
  | ⟨0, _⟩ => show 0 + 1 * 0 = 0; omega
  | ⟨1, _⟩ => show 0 + 1 * t.val = t.val; omega

end Cert.Kernel.Head

end
-- ==== Proof.HeadFrameBits.lean ====
/-
  The frame of the one pallas_call, at any float instance: fourteen grid points over 321 rows in blocks of 24, so the
  last point's activation blocks and result block overhang their arrays by fifteen rows. A fetch of an overhanging
  block fills the staging buffer's first nine rows from the array and leaves the other fifteen at words nothing names;
  the body multiplies and stores all 24 rows; the write-back writes the first nine rows only. Row v of what the body
  stores reads rows v of the two activation buffers only, so the rows written back do not depend on the unnamed words.
  The proof data therefore names the buffers filled out with zeros, and the body obligation hands each loose buffer
  back stated on its rows inside the array.
-/
import proofs.«117278_g18296560681217_cont_8to1_896_17_alg».proof.Proof.HeadShapeBits
import proofs.«117278_g18296560681217_cont_8to1_896_17_alg».proof.Proof.Gen.Kernel.Frame
import proofs.«117278_g18296560681217_cont_8to1_896_17_alg».proof.Proof.Gen.Kernel.Points

set_option maxRecDepth 16384

noncomputable section

namespace Cert.Kernel.Head

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule's sizes -/

/-- At every point the activation windows move as many rows as the result window, and whole patches, lanes and columns. -/
theorem sched (t : Fin grid0.N) :
    win0_0.xsize (grid0.coords t) 0 = win0_5.xsize (grid0.coords t) 1
    ∧ win0_1.xsize (grid0.coords t) 0 = win0_5.xsize (grid0.coords t) 1
    ∧ win0_0.xsize (grid0.coords t) 1 = 12 ∧ win0_0.xsize (grid0.coords t) 2 = 64 ∧ win0_0.xsize (grid0.coords t) 3 = 128
    ∧ win0_1.xsize (grid0.coords t) 1 = 12 ∧ win0_1.xsize (grid0.coords t) 2 = 64 ∧ win0_1.xsize (grid0.coords t) 3 = 128 :=
  (by decide +kernel : ∀ t : Fin grid0.N,
    win0_0.xsize (grid0.coords t) 0 = win0_5.xsize (grid0.coords t) 1
    ∧ win0_1.xsize (grid0.coords t) 0 = win0_5.xsize (grid0.coords t) 1
    ∧ win0_0.xsize (grid0.coords t) 1 = 12 ∧ win0_0.xsize (grid0.coords t) 2 = 64 ∧ win0_0.xsize (grid0.coords t) 3 = 128
    ∧ win0_1.xsize (grid0.coords t) 1 = 12 ∧ win0_1.xsize (grid0.coords t) 2 = 64 ∧ win0_1.xsize (grid0.coords t) 3 = 128) t

/-- The result window is never fetched. -/
theorem fetch0_5 : ∀ t : Fin cfg0.N, (cfg0.win 5).fetch t = false :=
  (by decide +kernel : ∀ t : Fin grid0.N, win0_5.fetch t = false)

/-! ## The staging memrefs at a point -/

abbrev ms0 (t : Fin cfg0.N) : Memref sig .tc .vmem S24x12x64x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S24x12x64x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S12x128x96 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S12x128x96 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x96 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S64x24x96 .f32 := win0_5.stage (cfg0.slots t 5)
abbrev hs5 (t : Fin cfg0.N) : (ms5 t).IsWhole := hstage0_5 ((cfg0.slots t 5).cast nbuf0_5)

/-! ## The proof data -/

/-- The first activation's block at point t, filled out with zeros past the array's end. -/
def xfull0 (c : Dev nD) (t : Fin cfg0.N) : Vec F S24x12x64x128 .f32 :=
  win0_0.fill (grid0.coords t) (fun _ => Scalar.ofBits .f32 0#32) (iblk m c 0 t)
/-- The second activation's likewise. -/
def xfull1 (c : Dev nD) (t : Fin cfg0.N) : Vec F S24x12x64x128 .f32 :=
  win0_1.fill (grid0.coords t) (fun _ => Scalar.ofBits .f32 0#32) (iblk m c 1 t)

/-- What the body stores at point t, from the filled-out activation blocks and the weight and bias blocks. -/
def outAt (c : Dev nD) (t : Fin cfg0.N) : Vec F S64x24x96 .f32 :=
  headOut (xfull0 m c t) (xfull1 m c t) (iblk m c 2 t) (iblk m c 3 t) (iblk m c 4 t)

/-- The proof data of the pipeline on core c: the arrays as the region finds them; after the body each input's buffer
    at its block (the activations' filled out) and the result's at the stored value; the class's invariant; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => xfull0 m c t
    | ⟨1, _⟩ => xfull1 m c t
    | ⟨2, _⟩ => iblk m c 2 t
    | ⟨3, _⟩ => iblk m c 3 t
    | ⟨4, _⟩ => iblk m c 4 t
    | ⟨5, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xfull0 m c t := by dsimp only [dats]
theorem after0_1 (c : Dev nD) (t : Fin cfg0.N) : (dats m 0 c).after 1 t = xfull1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

/-- An activation's buffer as the body finds it: just fetched, the block on the rows inside the array and what the
    buffer held elsewhere. -/
theorem before0_0 (c : Dev nD) (t : Fin cfg0.N) (d) :
    (dats m 0 c).before 0 t d = win0_0.fill (grid0.coords t) d (iblk m c 0 t) := by
  rw [Dat.before_fetched _ 0 t (fetch0_0 t)]; rfl
theorem before0_1 (c : Dev nD) (t : Fin cfg0.N) (d) :
    (dats m 0 c).before 1 t d = win0_1.fill (grid0.coords t) d (iblk m c 1 t) := by
  rw [Dat.before_fetched _ 1 t (fetch0_1 t)]; rfl
/-- The weights' and the bias' buffers hold their one block at every point. -/
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- The result's buffer holds anything: it was written back at the point before. -/
theorem before0_5 (c : Dev nD) (t : Fin cfg0.N) (d) : (dats m 0 c).before 5 t d = d :=
  Dat.before_out_reset _ 5 rfl t (by
    by_cases h : t.val = 0
    · exact .inl h
    · exact .inr ⟨h, flush0_5 _⟩) d

/-! ## The rows written back do not depend on the unnamed words -/

/-- An activation buffer filled out two ways agrees on a row the fetch moved. -/
theorem fill0_row (t : Fin grid0.N) (d d' : S24x12x64x128.Idx → Elt F .f32) (g : (win0_0.xblock (grid0.coords t)).Idx → Elt F .f32)
    (v : Fin 24) (hv : v.val < win0_0.xsize (grid0.coords t) 0) (p : Fin 12) (b : Fin 64) (k : Fin 128) :
    win0_0.fill (grid0.coords t) d g (ix4 v p b k) = win0_0.fill (grid0.coords t) d' g (ix4 v p b k) := by
  obtain ⟨-, -, h1, h2, h3, -, -, -⟩ := sched t
  have hm : win0_0.moved (grid0.coords t) (ix4 v p b k) = true := (win0_0.moved_iff _ _).mpr fun a => by
    match a with
    | ⟨0, _⟩ => exact hv
    | ⟨1, _⟩ => exact lt_of_lt_of_eq p.isLt h1.symm
    | ⟨2, _⟩ => exact lt_of_lt_of_eq b.isLt h2.symm
    | ⟨3, _⟩ => exact lt_of_lt_of_eq k.isLt h3.symm
  unfold Window.fill; rw [dif_pos hm, dif_pos hm]

theorem fill1_row (t : Fin grid0.N) (d d' : S24x12x64x128.Idx → Elt F .f32) (g : (win0_1.xblock (grid0.coords t)).Idx → Elt F .f32)
    (v : Fin 24) (hv : v.val < win0_1.xsize (grid0.coords t) 0) (p : Fin 12) (b : Fin 64) (k : Fin 128) :
    win0_1.fill (grid0.coords t) d g (ix4 v p b k) = win0_1.fill (grid0.coords t) d' g (ix4 v p b k) := by
  obtain ⟨-, -, -, -, -, h1, h2, h3⟩ := sched t
  have hm : win0_1.moved (grid0.coords t) (ix4 v p b k) = true := (win0_1.moved_iff _ _).mpr fun a => by
    match a with
    | ⟨0, _⟩ => exact hv
    | ⟨1, _⟩ => exact lt_of_lt_of_eq p.isLt h1.symm
    | ⟨2, _⟩ => exact lt_of_lt_of_eq b.isLt h2.symm
    | ⟨3, _⟩ => exact lt_of_lt_of_eq k.isLt h3.symm
  unfold Window.fill; rw [dif_pos hm, dif_pos hm]

/-- The rows of the stored value that the write-back moves are the same whatever filled out the activation buffers. -/
theorem cut_headOut (t : Fin grid0.N) (d0 d0' d1 d1' : S24x12x64x128.Idx → Elt F .f32)
    (g0 : (win0_0.xblock (grid0.coords t)).Idx → Elt F .f32) (g1 : (win0_1.xblock (grid0.coords t)).Idx → Elt F .f32)
    (x2 x3 : Vec F S12x128x96 .f32) (x4 : Vec F S1x96 .f32) :
    win0_5.cut (grid0.coords t) (headOut (win0_0.fill (grid0.coords t) d0 g0) (win0_1.fill (grid0.coords t) d1 g1) x2 x3 x4)
      = win0_5.cut (grid0.coords t) (headOut (win0_0.fill (grid0.coords t) d0' g0) (win0_1.fill (grid0.coords t) d1' g1) x2 x3 x4) := by
  funext j
  obtain ⟨e0, e1, -⟩ := sched t
  have hb : (j 0).val < 64 := lt_of_lt_of_le (j 0).isLt (win0_5.xsize_le (grid0.coords t) 0)
  have hv : (j 1).val < 24 := lt_of_lt_of_le (j 1).isLt (win0_5.xsize_le (grid0.coords t) 1)
  have ht : (j 2).val < 96 := lt_of_lt_of_le (j 2).isLt (win0_5.xsize_le (grid0.coords t) 2)
  have hx : win0_5.xinj (grid0.coords t) j = ix3 (⟨(j 0).val, hb⟩ : Fin 64) (⟨(j 1).val, hv⟩ : Fin 24) (⟨(j 2).val, ht⟩ : Fin 96) :=
    funext fun a => by match a with | ⟨0, _⟩ => rfl | ⟨1, _⟩ => rfl | ⟨2, _⟩ => rfl
  show headOut _ _ x2 x3 x4 (win0_5.xinj (grid0.coords t) j) = headOut _ _ x2 x3 x4 (win0_5.xinj (grid0.coords t) j)
  rw [hx, headOut_apply, headOut_apply]
  refine congrFun (acc_congr x2 x3 x4 _ (slabX_congr _ fun p b k => ?_) (slabX_congr _ fun p b k => ?_)) _
  · exact fill0_row t d0 d0' g0 _ (lt_of_lt_of_eq (j 1).isLt e0.symm) p b k
  · exact fill1_row t d1 d1' g1 _ (lt_of_lt_of_eq (j 1).isLt e1.symm) p b k

/-! ## The body obligation -/

theorem hz3 : (![0, 0, 0] : Fin 3 → Nat) = fun _ => 0 := funext fun a => by fin_cases a <;> rfl

/-- The one whole piece covers the result's block. -/
theorem cover5 (p0 : Vec F S64x24x96 .f32) (y : S64x24x96.Idx) :
    ∃ pc ∈ ([⟨Rect.unit (s := S64x24x96) ![0, 0, 0] S64x24x96.size inb_S64x24x96_S64x24x96_0_0_0, p0⟩] : List (View.Piece (Elt F) S64x24x96 .f32)), y ∈ pc.1.set :=
  View.cover_of_tiled [⟨Rect.unit (s := S64x24x96) ![0, 0, 0] S64x24x96.size inb_S64x24x96_S64x24x96_0_0_0, p0⟩] S64x24x96.size (by rfl) y

set_option maxHeartbeats 1600000 in
/-- The library's body obligation at every point: the activations' buffers arrive holding their blocks filled out with
    anything, the weights' and the bias' their blocks, the result's anything; the run hands the inputs back as they were
    and the result's buffer at the stored value of what it found, which on the rows the write-back moves is the proof
    data's (`cut_headOut`) — all a loose window's obligation asks. -/
theorem body_obligation (c : Dev nD) : BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩⟩
  rw [before0_0 m c t d0, before0_1 m c t d1, before0_2 m c t d2, before0_3 m c t d3, before0_4 m c t d4, before0_5 m c t d5]
  iapply ((kernelRun c (grid0.coords t) (ms0 t) (hs0 t) (ms1 t) (hs1 t) (ms2 t) (hs2 t) (ms3 t) (hs3 t) (ms4 t) (hs4 t) (ms5 t) (hs5 t)
    (win0_0.fill (grid0.coords t) d0 (iblk m c 0 t)) (win0_1.fill (grid0.coords t) d1 (iblk m c 1 t)) (iblk m c 2 t) (iblk m c 3 t) (iblk m c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]
  · iexists d0
    rw [after0_0]; unfold xfull0; rw [win0_0.cut_fill]; iexact H0
  isplitl [H1]
  · iexists d1
    rw [after0_1]; unfold xfull1; rw [win0_1.cut_fill]; iexact H1
  isplitl [H2]; · rw [after0_2]; iexact H2
  isplitl [H3]; · rw [after0_3]; iexact H3
  isplitl [H4]; · rw [after0_4]; iexact H4
  iexists headOut (win0_0.fill (grid0.coords t) d0 (iblk m c 0 t)) (win0_1.fill (grid0.coords t) d1 (iblk m c 1 t)) (iblk m c 2 t) (iblk m c 3 t) (iblk m c 4 t)
  rw [after0_5]; unfold outAt xfull0 xfull1
  rw [win0_5.fill_congr_cut (grid0.coords t) (cut_headOut t _ _ _ _ _ _ _ _ _)]
  unfold owns; iexists _; isplitr
  swap; · iexact H5
  ipureintro
  rw [pieces_eq, View.read_writes_eq_canon _ _ _ (cover5 _), View.canon_unit_zero hz3]

/-! ## The run and the frame -/

set_option backward.isDefEq.respectTransparency.types false in
/-- At the compiled mesh, for any values, from any memory with zero counters: every weakly fair execution of @main
    terminates, every array of the pipeline ends at what the library computes from the proof data, and every other
    unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the run ends with the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Head

end
-- ==== Proof.HeadRunIdeal.lean ====
/-
  The kernel body's run, once, at symbolic staging contents and any float instance: from the five input
  staging buffers held whole at contents x0 … x4 and the result's staging buffer at anything, the body — 1152 loads of
  (64, 128) and (128, 96) slabs, 576 products accumulated onto the broadcast bias row in 24 chains, one whole store of the
  stacked and transposed chains — runs to its return with the inputs as they were and the result's buffer holding the
  one piece the store wrote. The piece is the witness the run finds; its value is read elsewhere.
-/
import proofs.«117278_g18296560681217_cont_8to1_896_17_alg».proof.Proof.Gen.KernelIdeal.Skeleton
import proofs.«117278_g18296560681217_cont_8to1_896_17_alg».proof.Proof.Gen.KernelIdeal.Launch
import Idealize.ShloMosaic.Lib.Pipeline.FrameBody
import Idealize.ShloMosaic.Lib.Tactic

set_option maxRecDepth 16384

noncomputable section

namespace Cert.KernelIdeal.Head

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- What the body's one store leaves in the result's staging memref, as a list of pieces, with the proof that on whole
    staging memrefs — the inputs' at their contents, the result's at anything — the body runs to the continuation
    holding the inputs' as they were and the result's buffer with that piece written. -/
noncomputable def kernelRun (c : Dev nD) (i : grid0.Coords)
    (arg1 : Memref sig .tc .vmem S24x12x64x128 .f32) (harg1 : arg1.IsWhole)
    (arg2 : Memref sig .tc .vmem S24x12x64x128 .f32) (harg2 : arg2.IsWhole)
    (arg3 : Memref sig .tc .vmem S12x128x96 .f32) (harg3 : arg3.IsWhole)
    (arg4 : Memref sig .tc .vmem S12x128x96 .f32) (harg4 : arg4.IsWhole)
    (arg5 : Memref sig .tc .vmem S1x96 .f32) (harg5 : arg5.IsWhole)
    (arg6 : Memref sig .tc .vmem S64x24x96 .f32) (harg6 : arg6.IsWhole)
    (x0 x1 : Vec F S24x12x64x128 .f32) (x2 x3 : Vec F S12x128x96 .f32) (x4 : Vec F S1x96 .f32) :
    { L : List (View.Piece (Elt F) S64x24x96 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ (∃ d, owns (c : Thread nD τ) arg6 fullShare d)
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ owns (c : Thread nD τ) arg5 fullShare x4
                ∗ (∃ f, arg6.view.loc (c : Thread nD τ) ↦[arg6.view.set]{fullShare} arg6.view.writes (Elt F) f L)) -∗ K ⟨⟩))
          ⊢ wp frame (wpE (defs₀ (F := F)) Variants.none c none) E
              (cc0__head_kernel i arg1 harg1 arg2 harg2 arg3 harg3 arg4 harg4 arg5 harg5 arg6 harg6) K } := by
  refine ⟨?_, fun E K => ?run⟩
  case run =>
    simp only [cc0__head_kernel_eq_skeleton]; unfold cc0__head_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0
    obtain rfl := harg2.eq_unread hf1
    obtain rfl := harg3.eq_unread hf2
    obtain rfl := harg4.eq_unread hf3
    obtain rfl := harg5.eq_unread hf4
    sl_exec_parts
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.KernelIdeal.Head

end
-- ==== Proof.HeadShapeIdeal.lean ====
/-
  What the body's one store holds, as a structured term at any float instance. A staged activation block x is read
  slab by slab: slab (v, p) is the (64, 128) matrix x[v, p, :, :]; a staged weight block w slab by slab: slab p is the
  (128, 96) matrix w[p, :, :]. For each of the 24 rows v of the block the body starts from the bias row broadcast over
  64 lanes and adds, for p = 0 … 11 in turn, slab (v, p) of the first activation times slab p of the first weight, then
  slab (v, p) of the second activation times slab p of the second weight: acc v. The 24 accumulators are stacked along a
  new leading axis and the first two axes are swapped: entry (b, v, t) of the result is entry (b, t) of acc v. So row v
  of the result depends on rows v of the two activation blocks only.
-/
import proofs.«117278_g18296560681217_cont_8to1_896_17_alg».proof.Proof.HeadRunIdeal
import Idealize.ShloMosaic.Lib.Pipeline.Value
import Idealize.ShloMosaic.Lib.ValueIdx

set_option maxRecDepth 65536

noncomputable section

namespace Cert.KernelIdeal.Head

open Cert.KernelIdeal Cert.KernelIdeal.Gen
open Idealize.ShloMosaic Idealize.ShloMosaic.TcCoe Idealize.ShloMosaic.Tactic
open Idealize.SL Idealize.SL.Sem
open Idealize.ShloMosaic.ValueIdx

variable {F : FTy → Type} [FloatOps F]

theorem inbX (v : Fin 24) (p : Fin 12) : ∀ a, (![v.val, p.val, 0, 0] : Fin 4 → Nat) a + S1x1x64x128.size a ≤ S24x12x64x128.size a := by
  intro a; have := v.isLt; have := p.isLt
  fin_cases a <;> simp <;> omega

theorem inbW (p : Fin 12) : ∀ a, (![p.val, 0, 0] : Fin 3 → Nat) a + S1x128x96.size a ≤ S12x128x96.size a := by
  intro a; have := p.isLt
  fin_cases a <;> simp <;> omega

/-- Slab (v, p) of a staged activation block, as a (64, 128) matrix. -/
def slabX (x : Vec F S24x12x64x128 .f32) (v : Fin 24) (p : Fin 12) : FVec F S64x128 .f32 :=
  shapeCast S64x128 (View.ld x (Rect.unit (s := S24x12x64x128) ![v.val, p.val, 0, 0] S1x1x64x128.size (inbX v p))) shapeCasts_S1x1x64x128_S64x128

/-- Slab p of a staged weight block, as a (128, 96) matrix. -/
def slabW (w : Vec F S12x128x96 .f32) (p : Fin 12) : FVec F S128x96 .f32 :=
  shapeCast S128x96 (View.ld w (Rect.unit (s := S12x128x96) ![p.val, 0, 0] S1x128x96.size (inbW p))) shapeCasts_S1x128x96_S128x96

/-- The staged bias row over the 64 lanes. -/
def biasRows (x4 : Vec F S1x96 .f32) : FVec F S64x96 .f32 :=
  broadcastTo S64x96 (shapeCast S1x96 (shapeCast S1x96 (View.ld x4 (Rect.unit (s := S1x96) ![0, 0] S1x96.size inb_S1x96_S1x96_0_0)) shapeCasts_S1x96_S1x96) shapeCasts_S1x96_S1x96) broadcasts_S1x96_S64x96

/-- One (64, 128) by (128, 96) product into zero. -/
def mm (a : FVec F S64x128 .f32) (w : FVec F S128x96 .f32) : FVec F S64x96 .f32 :=
  matmul dot_S64x128_S128x96_S64x96_1_0_0_1_n_n none a w (constant S64x96 .f32 0x00000000#32)

/-- One step of the accumulation of row v: the two products of patch p added in turn. -/
def step (x0 x1 : Vec F S24x12x64x128 .f32) (x2 x3 : Vec F S12x128x96 .f32) (v : Fin 24) (a : FVec F S64x96 .f32) (p : Fin 12) : FVec F S64x96 .f32 :=
  addf (addf a (mm (slabX x0 v p) (slabW x2 p))) (mm (slabX x1 v p) (slabW x3 p))

/-- Row v's accumulator: the bias rows, then the twelve steps in order. -/
def acc (x0 x1 : Vec F S24x12x64x128 .f32) (x2 x3 : Vec F S12x128x96 .f32) (x4 : Vec F S1x96 .f32) (v : Fin 24) : FVec F S64x96 .f32 :=
  List.foldl (step x0 x1 x2 x3 v) (biasRows x4) [0, 1, 2, 3, 4, 5, 6, 7, 8, 9, 10, 11]

theorem stackedShape {α : Type} (f : Fin 24 → (S1x64x96.Idx → α)) :
    Shape.Concatenates ((List.ofFn fun v : Fin 24 => (⟨S1x64x96, f v⟩ : (s : Shape) × (s.Idx → α))).map (·.1)) S24x64x96 0 := by
  rw [List.map_ofFn]
  exact (by decide : Shape.Concatenates (List.ofFn fun _ : Fin 24 => S1x64x96) S24x64x96 0)

/-- The 24 accumulators stacked along a new leading axis. -/
def stacked (x0 x1 : Vec F S24x12x64x128 .f32) (x2 x3 : Vec F S12x128x96 .f32) (x4 : Vec F S1x96 .f32) : FVec F S24x64x96 .f32 :=
  concatenate S24x64x96 0 (List.ofFn fun v : Fin 24 => (⟨S1x64x96, shapeCast S1x64x96 (acc x0 x1 x2 x3 x4 v) shapeCasts_S64x96_S1x64x96⟩ : (s : Shape) × (s.Idx → F .f32)))
    (stackedShape _)

/-- The stored value: the stack with its first two axes swapped. -/
def headOut (x0 x1 : Vec F S24x12x64x128 .f32) (x2 x3 : Vec F S12x128x96 .f32) (x4 : Vec F S1x96 .f32) : FVec F S64x24x96 .f32 :=
  transpose S64x24x96 [1, 0, 2] (stacked x0 x1 x2 x3 x4) transposes_S24x64x96_p1_0_2_S64x24x96

set_option maxHeartbeats 4000000 in
/-- The run's witness is the one whole piece holding that value: the run's names opened, each load off a whole
    memref the contents through its rectangle, and the two terms the same by unfolding. -/
theorem pieces_eq (c : Dev nD) (i : grid0.Coords)
    (arg1 : Memref sig .tc .vmem S24x12x64x128 .f32) (harg1 : arg1.IsWhole)
    (arg2 : Memref sig .tc .vmem S24x12x64x128 .f32) (harg2 : arg2.IsWhole)
    (arg3 : Memref sig .tc .vmem S12x128x96 .f32) (harg3 : arg3.IsWhole)
    (arg4 : Memref sig .tc .vmem S12x128x96 .f32) (harg4 : arg4.IsWhole)
    (arg5 : Memref sig .tc .vmem S1x96 .f32) (harg5 : arg5.IsWhole)
    (arg6 : Memref sig .tc .vmem S64x24x96 .f32) (harg6 : arg6.IsWhole)
    (x0 x1 : Vec F S24x12x64x128 .f32) (x2 x3 : Vec F S12x128x96 .f32) (x4 : Vec F S1x96 .f32) :
    (kernelRun c i arg1 harg1 arg2 harg2 arg3 harg3 arg4 harg4 arg5 harg5 arg6 harg6 x0 x1 x2 x3 x4).1
      = [⟨Rect.unit (s := S64x24x96) ![0, 0, 0] S64x24x96.size inb_S64x24x96_S64x24x96_0_0_0, headOut x0 x1 x2 x3 x4⟩] := by
  unfold kernelRun
  dsimp only
  sl_unfold_words
  simp only [View.readAt_eq_ld, harg1.read_unread, harg2.read_unread, harg3.read_unread, harg4.read_unread, harg5.read_unread]
  rfl

/-- Entry (b, v, t) of the stored value is entry (b, t) of row v's accumulator. -/
theorem headOut_apply (x0 x1 : Vec F S24x12x64x128 .f32) (x2 x3 : Vec F S12x128x96 .f32) (x4 : Vec F S1x96 .f32)
    (b : Fin 64) (v : Fin 24) (t : Fin 96) :
    headOut x0 x1 x2 x3 x4 (ix3 b v t) = acc x0 x1 x2 x3 x4 v (ix2 b t) := by
  unfold headOut
  rw [transpose_apply [1, 0, 2] _ transposes_S24x64x96_p1_0_2_S64x24x96 (ix3 b v t) (ix3 v b t)
    (fun a => by match a with | ⟨0, _⟩ => rfl | ⟨1, _⟩ => rfl | ⟨2, _⟩ => rfl)]
  unfold stacked
  rw [concatenate_ofFn_unit_apply (t := S24x64x96) (s₁ := S1x64x96) 0
    (fun v : Fin 24 => shapeCast S1x64x96 (acc x0 x1 x2 x3 x4 v) shapeCasts_S64x96_S1x64x96) (stackedShape _) rfl rfl
    (ix3 v b t) v rfl (ix3 (0 : Fin 1) b t)
    (fun a ha => by match a with | ⟨0, _⟩ => exact absurd rfl ha | ⟨1, _⟩ => rfl | ⟨2, _⟩ => rfl)]
  exact shapeCast_apply _ shapeCasts_S64x96_S1x64x96 (ix3 (0 : Fin 1) b t) (ix2 b t)
    (by rw [Shape.rowMajor_val_two, Shape.rowMajor_val_three]; show b.val * 96 + t.val = (0 * 64 + b.val) * 96 + t.val; omega)

/-- Row v's accumulator reads rows v of the activation blocks only. -/
theorem acc_congr {x0 x0' x1 x1' : Vec F S24x12x64x128 .f32} (x2 x3 : Vec F S12x128x96 .f32) (x4 : Vec F S1x96 .f32) (v : Fin 24)
    (h0 : ∀ p, slabX x0 v p = slabX x0' v p) (h1 : ∀ p, slabX x1 v p = slabX x1' v p) :
    acc x0 x1 x2 x3 x4 v = acc x0' x1' x2 x3 x4 v := by
  unfold acc step
  simp only [h0, h1]

/-- A slab is its block's entries with the row and the patch fixed. -/
theorem slabX_apply (x : Vec F S24x12x64x128 .f32) (v : Fin 24) (p : Fin 12) (b : Fin 64) (d : Fin 128) :
    slabX x v p (ix2 b d) = x (ix4 v p b d) := by
  unfold slabX
  rw [shapeCast_apply _ shapeCasts_S1x1x64x128_S64x128 (ix2 b d) (ix4 (0 : Fin 1) (0 : Fin 1) b d)
    (by rw [Shape.rowMajor_val_two, Shape.rowMajor_val_four]; show ((0 * 1 + 0) * 64 + b.val) * 128 + d.val = b.val * 128 + d.val; omega)]
  show x _ = x _
  refine congrArg x (funext fun a => Fin.ext ?_)
  match a with
  | ⟨0, _⟩ => show v.val + 1 * 0 = v.val; omega
  | ⟨1, _⟩ => show p.val + 1 * 0 = p.val; omega
  | ⟨2, _⟩ => show 0 + 1 * b.val = b.val; omega
  | ⟨3, _⟩ => show 0 + 1 * d.val = d.val; omega

theorem slabW_apply (w : Vec F S12x128x96 .f32) (p : Fin 12) (d : Fin 128) (t : Fin 96) :
    slabW w p (ix2 d t) = w (ix3 p d t) := by
  unfold slabW
  rw [shapeCast_apply _ shapeCasts_S1x128x96_S128x96 (ix2 d t) (ix3 (0 : Fin 1) d t)
    (by rw [Shape.rowMajor_val_two, Shape.rowMajor_val_three]; show (0 * 128 + d.val) * 96 + t.val = d.val * 96 + t.val; omega)]
  show w _ = w _
  refine congrArg w (funext fun a => Fin.ext ?_)
  match a with
  | ⟨0, _⟩ => show p.val + 1 * 0 = p.val; omega
  | ⟨1, _⟩ => show 0 + 1 * d.val = d.val; omega
  | ⟨2, _⟩ => show 0 + 1 * t.val = t.val; omega

/-- Blocks that agree on row v have the same slabs of row v. -/
theorem slabX_congr {x x' : Vec F S24x12x64x128 .f32} (v : Fin 24)
    (h : ∀ (p : Fin 12) (b : Fin 64) (d : Fin 128), x (ix4 v p b d) = x' (ix4 v p b d)) (p : Fin 12) :
    slabX x v p = slabX x' v p := by
  funext j
  obtain ⟨b, d, rfl⟩ : ∃ (b : Fin 64) (d : Fin 128), j = ix2 b d := ⟨j 0, j 1, eq_ix2 j⟩
  rw [slabX_apply, slabX_apply, h]

theorem biasRows_apply (x4 : Vec F S1x96 .f32) (b : Fin 64) (t : Fin 96) :
    biasRows x4 (ix2 b t) = x4 (ix2 (0 : Fin 1) t) := by
  unfold biasRows
  rw [broadcastTo_apply _ broadcasts_S1x96_S64x96 (ix2 b t) (ix2 (0 : Fin 1) t)
    (fun a => by match a with
      | ⟨0, _⟩ => show (0 : Nat) = if (1 : Nat) = 1 then 0 else b.val; rw [if_pos rfl]
      | ⟨1, _⟩ => show t.val = if (96 : Nat) = 1 then 0 else t.val; rw [if_neg (by decide)]),
    shapeCast_self]
  rw [shapeCast_apply _ shapeCasts_S1x96_S1x96 (ix2 (0 : Fin 1) t) (ix2 (0 : Fin 1) t) rfl]
  show x4 _ = x4 _
  refine congrArg x4 (funext fun a => Fin.ext ?_)
  match a with
  | ⟨0, _⟩ => show 0 + 1 * 0 = 0; omega
  | ⟨1, _⟩ => show 0 + 1 * t.val = t.val; omega

end Cert.KernelIdeal.Head

end
-- ==== Proof.HeadFrameIdeal.lean ====
/-
  The frame of the one pallas_call, at any float instance: fourteen grid points over 321 rows in blocks of 24, so the
  last point's activation blocks and result block overhang their arrays by fifteen rows. A fetch of an overhanging
  block fills the staging buffer's first nine rows from the array and leaves the other fifteen at words nothing names;
  the body multiplies and stores all 24 rows; the write-back writes the first nine rows only. Row v of what the body
  stores reads rows v of the two activation buffers only, so the rows written back do not depend on the unnamed words.
  The proof data therefore names the buffers filled out with zeros, and the body obligation hands each loose buffer
  back stated on its rows inside the array.
-/
import proofs.«117278_g18296560681217_cont_8to1_896_17_alg».proof.Proof.HeadShapeIdeal
import proofs.«117278_g18296560681217_cont_8to1_896_17_alg».proof.Proof.Gen.KernelIdeal.Frame
import proofs.«117278_g18296560681217_cont_8to1_896_17_alg».proof.Proof.Gen.KernelIdeal.Points

set_option maxRecDepth 16384

noncomputable section

namespace Cert.KernelIdeal.Head

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule's sizes -/

/-- At every point the activation windows move as many rows as the result window, and whole patches, lanes and columns. -/
theorem sched (t : Fin grid0.N) :
    win0_0.xsize (grid0.coords t) 0 = win0_5.xsize (grid0.coords t) 1
    ∧ win0_1.xsize (grid0.coords t) 0 = win0_5.xsize (grid0.coords t) 1
    ∧ win0_0.xsize (grid0.coords t) 1 = 12 ∧ win0_0.xsize (grid0.coords t) 2 = 64 ∧ win0_0.xsize (grid0.coords t) 3 = 128
    ∧ win0_1.xsize (grid0.coords t) 1 = 12 ∧ win0_1.xsize (grid0.coords t) 2 = 64 ∧ win0_1.xsize (grid0.coords t) 3 = 128 :=
  (by decide +kernel : ∀ t : Fin grid0.N,
    win0_0.xsize (grid0.coords t) 0 = win0_5.xsize (grid0.coords t) 1
    ∧ win0_1.xsize (grid0.coords t) 0 = win0_5.xsize (grid0.coords t) 1
    ∧ win0_0.xsize (grid0.coords t) 1 = 12 ∧ win0_0.xsize (grid0.coords t) 2 = 64 ∧ win0_0.xsize (grid0.coords t) 3 = 128
    ∧ win0_1.xsize (grid0.coords t) 1 = 12 ∧ win0_1.xsize (grid0.coords t) 2 = 64 ∧ win0_1.xsize (grid0.coords t) 3 = 128) t

/-- The result window is never fetched. -/
theorem fetch0_5 : ∀ t : Fin cfg0.N, (cfg0.win 5).fetch t = false :=
  (by decide +kernel : ∀ t : Fin grid0.N, win0_5.fetch t = false)

/-! ## The staging memrefs at a point -/

abbrev ms0 (t : Fin cfg0.N) : Memref sig .tc .vmem S24x12x64x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S24x12x64x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S12x128x96 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S12x128x96 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x96 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S64x24x96 .f32 := win0_5.stage (cfg0.slots t 5)
abbrev hs5 (t : Fin cfg0.N) : (ms5 t).IsWhole := hstage0_5 ((cfg0.slots t 5).cast nbuf0_5)

/-! ## The proof data -/

/-- The first activation's block at point t, filled out with zeros past the array's end. -/
def xfull0 (c : Dev nD) (t : Fin cfg0.N) : Vec F S24x12x64x128 .f32 :=
  win0_0.fill (grid0.coords t) (fun _ => Scalar.ofBits .f32 0#32) (iblk m c 0 t)
/-- The second activation's likewise. -/
def xfull1 (c : Dev nD) (t : Fin cfg0.N) : Vec F S24x12x64x128 .f32 :=
  win0_1.fill (grid0.coords t) (fun _ => Scalar.ofBits .f32 0#32) (iblk m c 1 t)

/-- What the body stores at point t, from the filled-out activation blocks and the weight and bias blocks. -/
def outAt (c : Dev nD) (t : Fin cfg0.N) : Vec F S64x24x96 .f32 :=
  headOut (xfull0 m c t) (xfull1 m c t) (iblk m c 2 t) (iblk m c 3 t) (iblk m c 4 t)

/-- The proof data of the pipeline on core c: the arrays as the region finds them; after the body each input's buffer
    at its block (the activations' filled out) and the result's at the stored value; the class's invariant; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => xfull0 m c t
    | ⟨1, _⟩ => xfull1 m c t
    | ⟨2, _⟩ => iblk m c 2 t
    | ⟨3, _⟩ => iblk m c 3 t
    | ⟨4, _⟩ => iblk m c 4 t
    | ⟨5, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xfull0 m c t := by dsimp only [dats]
theorem after0_1 (c : Dev nD) (t : Fin cfg0.N) : (dats m 0 c).after 1 t = xfull1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

/-- An activation's buffer as the body finds it: just fetched, the block on the rows inside the array and what the
    buffer held elsewhere. -/
theorem before0_0 (c : Dev nD) (t : Fin cfg0.N) (d) :
    (dats m 0 c).before 0 t d = win0_0.fill (grid0.coords t) d (iblk m c 0 t) := by
  rw [Dat.before_fetched _ 0 t (fetch0_0 t)]; rfl
theorem before0_1 (c : Dev nD) (t : Fin cfg0.N) (d) :
    (dats m 0 c).before 1 t d = win0_1.fill (grid0.coords t) d (iblk m c 1 t) := by
  rw [Dat.before_fetched _ 1 t (fetch0_1 t)]; rfl
/-- The weights' and the bias' buffers hold their one block at every point. -/
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- The result's buffer holds anything: it was written back at the point before. -/
theorem before0_5 (c : Dev nD) (t : Fin cfg0.N) (d) : (dats m 0 c).before 5 t d = d :=
  Dat.before_out_reset _ 5 rfl t (by
    by_cases h : t.val = 0
    · exact .inl h
    · exact .inr ⟨h, flush0_5 _⟩) d

/-! ## The rows written back do not depend on the unnamed words -/

/-- An activation buffer filled out two ways agrees on a row the fetch moved. -/
theorem fill0_row (t : Fin grid0.N) (d d' : S24x12x64x128.Idx → Elt F .f32) (g : (win0_0.xblock (grid0.coords t)).Idx → Elt F .f32)
    (v : Fin 24) (hv : v.val < win0_0.xsize (grid0.coords t) 0) (p : Fin 12) (b : Fin 64) (k : Fin 128) :
    win0_0.fill (grid0.coords t) d g (ix4 v p b k) = win0_0.fill (grid0.coords t) d' g (ix4 v p b k) := by
  obtain ⟨-, -, h1, h2, h3, -, -, -⟩ := sched t
  have hm : win0_0.moved (grid0.coords t) (ix4 v p b k) = true := (win0_0.moved_iff _ _).mpr fun a => by
    match a with
    | ⟨0, _⟩ => exact hv
    | ⟨1, _⟩ => exact lt_of_lt_of_eq p.isLt h1.symm
    | ⟨2, _⟩ => exact lt_of_lt_of_eq b.isLt h2.symm
    | ⟨3, _⟩ => exact lt_of_lt_of_eq k.isLt h3.symm
  unfold Window.fill; rw [dif_pos hm, dif_pos hm]

theorem fill1_row (t : Fin grid0.N) (d d' : S24x12x64x128.Idx → Elt F .f32) (g : (win0_1.xblock (grid0.coords t)).Idx → Elt F .f32)
    (v : Fin 24) (hv : v.val < win0_1.xsize (grid0.coords t) 0) (p : Fin 12) (b : Fin 64) (k : Fin 128) :
    win0_1.fill (grid0.coords t) d g (ix4 v p b k) = win0_1.fill (grid0.coords t) d' g (ix4 v p b k) := by
  obtain ⟨-, -, -, -, -, h1, h2, h3⟩ := sched t
  have hm : win0_1.moved (grid0.coords t) (ix4 v p b k) = true := (win0_1.moved_iff _ _).mpr fun a => by
    match a with
    | ⟨0, _⟩ => exact hv
    | ⟨1, _⟩ => exact lt_of_lt_of_eq p.isLt h1.symm
    | ⟨2, _⟩ => exact lt_of_lt_of_eq b.isLt h2.symm
    | ⟨3, _⟩ => exact lt_of_lt_of_eq k.isLt h3.symm
  unfold Window.fill; rw [dif_pos hm, dif_pos hm]

/-- The rows of the stored value that the write-back moves are the same whatever filled out the activation buffers. -/
theorem cut_headOut (t : Fin grid0.N) (d0 d0' d1 d1' : S24x12x64x128.Idx → Elt F .f32)
    (g0 : (win0_0.xblock (grid0.coords t)).Idx → Elt F .f32) (g1 : (win0_1.xblock (grid0.coords t)).Idx → Elt F .f32)
    (x2 x3 : Vec F S12x128x96 .f32) (x4 : Vec F S1x96 .f32) :
    win0_5.cut (grid0.coords t) (headOut (win0_0.fill (grid0.coords t) d0 g0) (win0_1.fill (grid0.coords t) d1 g1) x2 x3 x4)
      = win0_5.cut (grid0.coords t) (headOut (win0_0.fill (grid0.coords t) d0' g0) (win0_1.fill (grid0.coords t) d1' g1) x2 x3 x4) := by
  funext j
  obtain ⟨e0, e1, -⟩ := sched t
  have hb : (j 0).val < 64 := lt_of_lt_of_le (j 0).isLt (win0_5.xsize_le (grid0.coords t) 0)
  have hv : (j 1).val < 24 := lt_of_lt_of_le (j 1).isLt (win0_5.xsize_le (grid0.coords t) 1)
  have ht : (j 2).val < 96 := lt_of_lt_of_le (j 2).isLt (win0_5.xsize_le (grid0.coords t) 2)
  have hx : win0_5.xinj (grid0.coords t) j = ix3 (⟨(j 0).val, hb⟩ : Fin 64) (⟨(j 1).val, hv⟩ : Fin 24) (⟨(j 2).val, ht⟩ : Fin 96) :=
    funext fun a => by match a with | ⟨0, _⟩ => rfl | ⟨1, _⟩ => rfl | ⟨2, _⟩ => rfl
  show headOut _ _ x2 x3 x4 (win0_5.xinj (grid0.coords t) j) = headOut _ _ x2 x3 x4 (win0_5.xinj (grid0.coords t) j)
  rw [hx, headOut_apply, headOut_apply]
  refine congrFun (acc_congr x2 x3 x4 _ (slabX_congr _ fun p b k => ?_) (slabX_congr _ fun p b k => ?_)) _
  · exact fill0_row t d0 d0' g0 _ (lt_of_lt_of_eq (j 1).isLt e0.symm) p b k
  · exact fill1_row t d1 d1' g1 _ (lt_of_lt_of_eq (j 1).isLt e1.symm) p b k

/-! ## The body obligation -/

theorem hz3 : (![0, 0, 0] : Fin 3 → Nat) = fun _ => 0 := funext fun a => by fin_cases a <;> rfl

/-- The one whole piece covers the result's block. -/
theorem cover5 (p0 : Vec F S64x24x96 .f32) (y : S64x24x96.Idx) :
    ∃ pc ∈ ([⟨Rect.unit (s := S64x24x96) ![0, 0, 0] S64x24x96.size inb_S64x24x96_S64x24x96_0_0_0, p0⟩] : List (View.Piece (Elt F) S64x24x96 .f32)), y ∈ pc.1.set :=
  View.cover_of_tiled [⟨Rect.unit (s := S64x24x96) ![0, 0, 0] S64x24x96.size inb_S64x24x96_S64x24x96_0_0_0, p0⟩] S64x24x96.size (by rfl) y

set_option maxHeartbeats 1600000 in
/-- The library's body obligation at every point: the activations' buffers arrive holding their blocks filled out with
    anything, the weights' and the bias' their blocks, the result's anything; the run hands the inputs back as they were
    and the result's buffer at the stored value of what it found, which on the rows the write-back moves is the proof
    data's (`cut_headOut`) — all a loose window's obligation asks. -/
theorem body_obligation (c : Dev nD) : BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩⟩
  rw [before0_0 m c t d0, before0_1 m c t d1, before0_2 m c t d2, before0_3 m c t d3, before0_4 m c t d4, before0_5 m c t d5]
  iapply ((kernelRun c (grid0.coords t) (ms0 t) (hs0 t) (ms1 t) (hs1 t) (ms2 t) (hs2 t) (ms3 t) (hs3 t) (ms4 t) (hs4 t) (ms5 t) (hs5 t)
    (win0_0.fill (grid0.coords t) d0 (iblk m c 0 t)) (win0_1.fill (grid0.coords t) d1 (iblk m c 1 t)) (iblk m c 2 t) (iblk m c 3 t) (iblk m c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]
  · iexists d0
    rw [after0_0]; unfold xfull0; rw [win0_0.cut_fill]; iexact H0
  isplitl [H1]
  · iexists d1
    rw [after0_1]; unfold xfull1; rw [win0_1.cut_fill]; iexact H1
  isplitl [H2]; · rw [after0_2]; iexact H2
  isplitl [H3]; · rw [after0_3]; iexact H3
  isplitl [H4]; · rw [after0_4]; iexact H4
  iexists headOut (win0_0.fill (grid0.coords t) d0 (iblk m c 0 t)) (win0_1.fill (grid0.coords t) d1 (iblk m c 1 t)) (iblk m c 2 t) (iblk m c 3 t) (iblk m c 4 t)
  rw [after0_5]; unfold outAt xfull0 xfull1
  rw [win0_5.fill_congr_cut (grid0.coords t) (cut_headOut t _ _ _ _ _ _ _ _ _)]
  unfold owns; iexists _; isplitr
  swap; · iexact H5
  ipureintro
  rw [pieces_eq, View.read_writes_eq_canon _ _ _ (cover5 _), View.canon_unit_zero hz3]

/-! ## The run and the frame -/

set_option backward.isDefEq.respectTransparency.types false in
/-- At the compiled mesh, for any values, from any memory with zero counters: every weakly fair execution of @main
    terminates, every array of the pipeline ends at what the library computes from the proof data, and every other
    unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the run ends with the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Head

end
-- ==== Proof.HeadBlocks.lean ====
/-
  The staged blocks read at an entry of the arrays the region finds. Point t's activation block is rows 24·t … of
  the transposed activation (its rows inside the array: the first nine at the last point, all 24 elsewhere); the weight
  and bias blocks are their whole arrays at every point; the result's block at point t is rows 24·t … of the result,
  cut the same way.
-/
import proofs.«117278_g18296560681217_cont_8to1_896_17_alg».proof.Proof.HeadFrameIdeal

set_option maxRecDepth 16384

noncomputable section

namespace Cert.KernelIdeal.Head

open Cert.KernelIdeal Cert.KernelIdeal.Gen
open Idealize.ShloMosaic Idealize.ShloMosaic.TcCoe Idealize.SL.Sem
open Idealize.ShloMosaic.Pipeline (Dat Cfg Window)
open Idealize.ShloMosaic.ValueIdx

variable {F : FTy → Type} [FloatOps F]
variable (m : (ℓ : Loc nD τ sig) → Buf (Elt F) ℓ)

/-- The windows' block indices at point t: the activations' and the result's move along the variable axis with the
    point, the others stay at zero. -/
theorem idxs (t : Fin grid0.N) :
    (win0_0.index t 0 = t.val ∧ win0_0.index t 1 = 0 ∧ win0_0.index t 2 = 0 ∧ win0_0.index t 3 = 0)
    ∧ (win0_1.index t 0 = t.val ∧ win0_1.index t 1 = 0 ∧ win0_1.index t 2 = 0 ∧ win0_1.index t 3 = 0)
    ∧ (win0_2.index t 0 = 0 ∧ win0_2.index t 1 = 0 ∧ win0_2.index t 2 = 0)
    ∧ (win0_3.index t 0 = 0 ∧ win0_3.index t 1 = 0 ∧ win0_3.index t 2 = 0)
    ∧ (win0_4.index t 0 = 0 ∧ win0_4.index t 1 = 0)
    ∧ (win0_5.index t 0 = 0 ∧ win0_5.index t 1 = t.val ∧ win0_5.index t 2 = 0) :=
  (by decide +kernel : ∀ t : Fin grid0.N,
    (win0_0.index t 0 = t.val ∧ win0_0.index t 1 = 0 ∧ win0_0.index t 2 = 0 ∧ win0_0.index t 3 = 0)
    ∧ (win0_1.index t 0 = t.val ∧ win0_1.index t 1 = 0 ∧ win0_1.index t 2 = 0 ∧ win0_1.index t 3 = 0)
    ∧ (win0_2.index t 0 = 0 ∧ win0_2.index t 1 = 0 ∧ win0_2.index t 2 = 0)
    ∧ (win0_3.index t 0 = 0 ∧ win0_3.index t 1 = 0 ∧ win0_3.index t 2 = 0)
    ∧ (win0_4.index t 0 = 0 ∧ win0_4.index t 1 = 0)
    ∧ (win0_5.index t 0 = 0 ∧ win0_5.index t 1 = t.val ∧ win0_5.index t 2 = 0)) t

/-- The result window moves whole lanes and columns, and the rows of its block that lie inside the 321. -/
theorem xs5 (t : Fin grid0.N) :
    win0_5.xsize (grid0.coords t) 0 = 64 ∧ win0_5.xsize (grid0.coords t) 2 = 96
    ∧ 24 * t.val + win0_5.xsize (grid0.coords t) 1 = min (24 * t.val + 24) 321 :=
  (by decide +kernel : ∀ t : Fin grid0.N,
    win0_5.xsize (grid0.coords t) 0 = 64 ∧ win0_5.xsize (grid0.coords t) 2 = 96
    ∧ 24 * t.val + win0_5.xsize (grid0.coords t) 1 = min (24 * t.val + 24) 321) t

/-- A filled-out activation block at a row the fetch moved is the transposed activation's row 24·t + v. -/
theorem xfull0_apply (c : Dev nD) (t : Fin grid0.N) (v : Fin 24) (hv : v.val < win0_0.xsize (grid0.coords t) 0)
    (p : Fin 12) (b : Fin 64) (d : Fin 128) (r : Fin 321) (hr : r.val = 24 * t.val + v.val) :
    xfull0 m c t (ix4 v p b d) = (V m c main_v0 : S321x12x64x128.Idx → Elt F .f32) (ix4 r p b d) := by
  obtain ⟨-, -, h1, h2, h3, -, -, -⟩ := sched t
  obtain ⟨⟨i0, i1, i2, i3⟩, -⟩ := idxs t
  have hm : win0_0.moved (grid0.coords t) (ix4 v p b d) = true := (win0_0.moved_iff _ _).mpr fun a => by
    match a with
    | ⟨0, _⟩ => exact hv
    | ⟨1, _⟩ => exact lt_of_lt_of_eq p.isLt h1.symm
    | ⟨2, _⟩ => exact lt_of_lt_of_eq b.isLt h2.symm
    | ⟨3, _⟩ => exact lt_of_lt_of_eq d.isLt h3.symm
  unfold xfull0 Window.fill
  rw [dif_pos hm]
  unfold iblk
  rw [View.read_apply]
  show (V m c main_v0 : S321x12x64x128.Idx → Elt F .f32) _ = V m c main_v0 _
  refine congrArg (V m c main_v0 : S321x12x64x128.Idx → Elt F .f32) (funext fun a => Fin.ext ?_)
  match a with
  | ⟨0, _⟩ => show win0_0.index t 0 * 24 + 1 * v.val = r.val; rw [i0, hr]; omega
  | ⟨1, _⟩ => show win0_0.index t 1 * 12 + 1 * p.val = p.val; rw [i1]; omega
  | ⟨2, _⟩ => show win0_0.index t 2 * 64 + 1 * b.val = b.val; rw [i2]; omega
  | ⟨3, _⟩ => show win0_0.index t 3 * 128 + 1 * d.val = d.val; rw [i3]; omega

theorem xfull1_apply (c : Dev nD) (t : Fin grid0.N) (v : Fin 24) (hv : v.val < win0_1.xsize (grid0.coords t) 0)
    (p : Fin 12) (b : Fin 64) (d : Fin 128) (r : Fin 321) (hr : r.val = 24 * t.val + v.val) :
    xfull1 m c t (ix4 v p b d) = (V m c main_v1 : S321x12x64x128.Idx → Elt F .f32) (ix4 r p b d) := by
  obtain ⟨-, -, -, -, -, h1, h2, h3⟩ := sched t
  obtain ⟨-, ⟨i0, i1, i2, i3⟩, -⟩ := idxs t
  have hm : win0_1.moved (grid0.coords t) (ix4 v p b d) = true := (win0_1.moved_iff _ _).mpr fun a => by
    match a with
    | ⟨0, _⟩ => exact hv
    | ⟨1, _⟩ => exact lt_of_lt_of_eq p.isLt h1.symm
    | ⟨2, _⟩ => exact lt_of_lt_of_eq b.isLt h2.symm
    | ⟨3, _⟩ => exact lt_of_lt_of_eq d.isLt h3.symm
  unfold xfull1 Window.fill
  rw [dif_pos hm]
  unfold iblk
  rw [View.read_apply]
  show (V m c main_v1 : S321x12x64x128.Idx → Elt F .f32) _ = V m c main_v1 _
  refine congrArg (V m c main_v1 : S321x12x64x128.Idx → Elt F .f32) (funext fun a => Fin.ext ?_)
  match a with
  | ⟨0, _⟩ => show win0_1.index t 0 * 24 + 1 * v.val = r.val; rw [i0, hr]; omega
  | ⟨1, _⟩ => show win0_1.index t 1 * 12 + 1 * p.val = p.val; rw [i1]; omega
  | ⟨2, _⟩ => show win0_1.index t 2 * 64 + 1 * b.val = b.val; rw [i2]; omega
  | ⟨3, _⟩ => show win0_1.index t 3 * 128 + 1 * d.val = d.val; rw [i3]; omega

/-- The weight blocks and the bias block are their arrays. -/
theorem iblk2_apply (c : Dev nD) (t : Fin grid0.N) (p : Fin 12) (d : Fin 128) (k : Fin 96) :
    (iblk m c 2 t : S12x128x96.Idx → Elt F .f32) (ix3 p d k) = (V m c main_v4 : S12x128x96.Idx → Elt F .f32) (ix3 p d k) := by
  obtain ⟨-, -, ⟨i0, i1, i2⟩, -⟩ := idxs t
  unfold iblk
  rw [View.read_apply]
  show (V m c main_v4 : S12x128x96.Idx → Elt F .f32) _ = V m c main_v4 _
  refine congrArg (V m c main_v4 : S12x128x96.Idx → Elt F .f32) (funext fun a => Fin.ext ?_)
  match a with
  | ⟨0, _⟩ => show win0_2.index t 0 * 12 + 1 * p.val = p.val; rw [i0]; omega
  | ⟨1, _⟩ => show win0_2.index t 1 * 128 + 1 * d.val = d.val; rw [i1]; omega
  | ⟨2, _⟩ => show win0_2.index t 2 * 96 + 1 * k.val = k.val; rw [i2]; omega

theorem iblk3_apply (c : Dev nD) (t : Fin grid0.N) (p : Fin 12) (d : Fin 128) (k : Fin 96) :
    (iblk m c 3 t : S12x128x96.Idx → Elt F .f32) (ix3 p d k) = (V m c main_v7 : S12x128x96.Idx → Elt F .f32) (ix3 p d k) := by
  obtain ⟨-, -, -, ⟨i0, i1, i2⟩, -⟩ := idxs t
  unfold iblk
  rw [View.read_apply]
  show (V m c main_v7 : S12x128x96.Idx → Elt F .f32) _ = V m c main_v7 _
  refine congrArg (V m c main_v7 : S12x128x96.Idx → Elt F .f32) (funext fun a => Fin.ext ?_)
  match a with
  | ⟨0, _⟩ => show win0_3.index t 0 * 12 + 1 * p.val = p.val; rw [i0]; omega
  | ⟨1, _⟩ => show win0_3.index t 1 * 128 + 1 * d.val = d.val; rw [i1]; omega
  | ⟨2, _⟩ => show win0_3.index t 2 * 96 + 1 * k.val = k.val; rw [i2]; omega

theorem iblk4_apply (c : Dev nD) (t : Fin grid0.N) (k : Fin 96) :
    (iblk m c 4 t : S1x96.Idx → Elt F .f32) (ix2 (0 : Fin 1) k) = (V m c main_v8 : S1x96.Idx → Elt F .f32) (ix2 (0 : Fin 1) k) := by
  obtain ⟨-, -, -, -, ⟨i0, i1⟩, -⟩ := idxs t
  unfold iblk
  rw [View.read_apply]
  show (V m c main_v8 : S1x96.Idx → Elt F .f32) _ = V m c main_v8 _
  refine congrArg (V m c main_v8 : S1x96.Idx → Elt F .f32) (funext fun a => Fin.ext ?_)
  match a with
  | ⟨0, _⟩ => show win0_4.index t 0 * 1 + 1 * 0 = 0; rw [i0]
  | ⟨1, _⟩ => show win0_4.index t 1 * 96 + 1 * k.val = k.val; rw [i1]; omega

end Cert.KernelIdeal.Head

end
-- ==== Proof.HeadAccValue.lean ====
/-
  Row v's accumulator at the ideal instance, read at an entry: each product into zero is the 128-term sum of the
  slabs' entries, an entry of a slab is the block's entry with the row and the patch fixed, and the twelve steps add
  the two products of each patch in turn onto the bias entry.
-/
import proofs.«117278_g18296560681217_cont_8to1_896_17_alg».proof.Proof.HeadShapeIdeal
import Idealize.ShloMosaic.PureOps.Ideal.Laws
import Idealize.ShloMosaic.Lib.ValueIdx
import Idealize.ShloMosaic.Lib.Pipeline.Value

noncomputable section

namespace Cert.KernelIdeal.Head

open Cert.KernelIdeal Cert.KernelIdeal.Gen
open Idealize.ShloMosaic Idealize.ShloMosaic.TcCoe
open Idealize.ShloMosaic.ValueIdx

/-- The left operand's index on axis 0 is the output's row. -/
theorem lhs_mm_0 (i : S64x96.Idx) (q : dot_S64x128_S128x96_S64x96_1_0_0_1_n_n.contr.Idx) :
    (dot_S64x128_S128x96_S64x96_1_0_0_1_n_n.lhsIdx i q 0).val = (i 0).val := by
  unfold DotDims.lhsIdx
  rw [dif_neg (show ¬(0 : Fin S64x128.rank) ∈ dot_S64x128_S128x96_S64x96_1_0_0_1_n_n.lhsBatch by decide), dif_pos (show (0 : Fin S64x128.rank) ∈ dot_S64x128_S128x96_S64x96_1_0_0_1_n_n.lhsNonContracting by decide)]
  rfl
/-- The left operand's index on axis 1 is the contracted lane. -/
theorem lhs_mm_1 (i : S64x96.Idx) (q : dot_S64x128_S128x96_S64x96_1_0_0_1_n_n.contr.Idx) :
    (dot_S64x128_S128x96_S64x96_1_0_0_1_n_n.lhsIdx i q 1).val = (q ⟨0, by decide⟩).val :=
  dot_S64x128_S128x96_S64x96_1_0_0_1_n_n.lhsIdx_val_of_single rfl i q
/-- The right operand's index on axis 0 is the contracted lane. -/
theorem rhs_mm_0 (i : S64x96.Idx) (q : dot_S64x128_S128x96_S64x96_1_0_0_1_n_n.contr.Idx) :
    (dot_S64x128_S128x96_S64x96_1_0_0_1_n_n.rhsIdx i q 0).val = (q ⟨0, by decide⟩).val :=
  dot_S64x128_S128x96_S64x96_1_0_0_1_n_n.rhsIdx_val_of_single rfl i q
/-- The right operand's index on axis 1 is the output's column. -/
theorem rhs_mm_1 (i : S64x96.Idx) (q : dot_S64x128_S128x96_S64x96_1_0_0_1_n_n.contr.Idx) :
    (dot_S64x128_S128x96_S64x96_1_0_0_1_n_n.rhsIdx i q 1).val = (i 1).val := by
  unfold DotDims.rhsIdx
  rw [dif_neg (show ¬(1 : Fin S128x96.rank) ∈ dot_S64x128_S128x96_S64x96_1_0_0_1_n_n.rhsBatch by decide), dif_pos (show (1 : Fin S128x96.rank) ∈ dot_S64x128_S128x96_S64x96_1_0_0_1_n_n.rhsNonContracting by decide)]
  rfl

/-- One product into zero, at an entry: the sum over the 128 contracted lanes. -/
theorem mm_apply (a : FVec Ideal S64x128 .f32) (w : FVec Ideal S128x96 .f32) (b : Fin 64) (t : Fin 96) :
    mm (F := Ideal) a w (ix2 b t) = ∑ d : Fin 128, a (ix2 b d) * w (ix2 d t) := by
  unfold mm
  simp only [matmul]
  rw [Ideal.matmul_constant_zero_apply, ← Equiv.sum_comp (contrEquiv1 dot_S64x128_S128x96_S64x96_1_0_0_1_n_n 128 rfl rfl).symm]
  refine Finset.sum_congr rfl fun k _ => ?_
  have hk := contrEquiv1_symm_val dot_S64x128_S128x96_S64x96_1_0_0_1_n_n 128 rfl rfl k
  have el : dot_S64x128_S128x96_S64x96_1_0_0_1_n_n.lhsIdx (ix2 b t) ((contrEquiv1 dot_S64x128_S128x96_S64x96_1_0_0_1_n_n 128 rfl rfl).symm k) = ix2 b k := funext fun a => Fin.ext (by
    match a with
    | ⟨0, _⟩ => exact lhs_mm_0 _ _
    | ⟨1, _⟩ => exact (lhs_mm_1 _ _).trans hk)
  have er : dot_S64x128_S128x96_S64x96_1_0_0_1_n_n.rhsIdx (ix2 b t) ((contrEquiv1 dot_S64x128_S128x96_S64x96_1_0_0_1_n_n 128 rfl rfl).symm k) = ix2 k t := funext fun a => Fin.ext (by
    match a with
    | ⟨0, _⟩ => exact (rhs_mm_0 _ _).trans hk
    | ⟨1, _⟩ => exact rhs_mm_1 _ _)
  rw [el, er]

/-- The steps read at an entry: a fold of steps over any list of patches, read at (b, t), is the fold of the scalar
    additions of the two 128-term sums of each patch, started from the initial block's entry. -/
theorem foldl_step_apply (x0 x1 : Vec Ideal S24x12x64x128 .f32) (x2 x3 : Vec Ideal S12x128x96 .f32)
    (v : Fin 24) (b : Fin 64) (t : Fin 96) (l : List (Fin 12)) (z : FVec Ideal S64x96 .f32) :
    List.foldl (step (F := Ideal) x0 x1 x2 x3 v) z l (ix2 b t)
      = List.foldl (fun (a : EReal) (p : Fin 12) =>
          a + (∑ d : Fin 128, x0 (ix4 v p b d) * x2 (ix3 p d t)) + (∑ d : Fin 128, x1 (ix4 v p b d) * x3 (ix3 p d t)))
        (z (ix2 b t)) l := by
  induction l generalizing z with
  | nil => rfl
  | cons p l ih =>
    rw [List.foldl_cons, List.foldl_cons, ih]
    congr 1
    unfold step
    rw [addf_apply, addf_apply, mm_apply, mm_apply]
    simp only [slabX_apply, slabW_apply]

/-- Row v's accumulator at entry (b, t): the bias entry, then for p = 0 … 11 the two 128-term sums added in turn. -/
theorem acc_apply (x0 x1 : Vec Ideal S24x12x64x128 .f32) (x2 x3 : Vec Ideal S12x128x96 .f32) (x4 : Vec Ideal S1x96 .f32)
    (v : Fin 24) (b : Fin 64) (t : Fin 96) :
    acc (F := Ideal) x0 x1 x2 x3 x4 v (ix2 b t)
      = List.foldl (fun (a : EReal) (p : Fin 12) =>
          a + (∑ d : Fin 128, x0 (ix4 v p b d) * x2 (ix3 p d t)) + (∑ d : Fin 128, x1 (ix4 v p b d) * x3 (ix3 p d t)))
        (x4 (ix2 (0 : Fin 1) t)) [0, 1, 2, 3, 4, 5, 6, 7, 8, 9, 10, 11] := by
  unfold acc
  rw [foldl_step_apply, biasRows_apply]

end Cert.KernelIdeal.Head

end
-- ==== Proof.HeadSpec.lean ====
/-
  The head's value at one output entry, written two ways over the four argument arrays: as the kernel accumulates it —
  the bias, then patch by patch the time branch's and the frequency branch's 128-term dot products — and as the
  reference computes it — one 3072-term dot product of the two branches' features joined along the feature axis and
  flattened with the patch index fastest, plus the bias. Over the extended reals the two are one number: addition is
  commutative and associative there, and the flattened feature index k = 12·d' + p runs over the time branch for
  d' < 128 and over the frequency branch for d' ≥ 128.
-/
import Idealize.ShloMosaic.Lib.ValueIdx
import Idealize.ShloMosaic.PureOps.Ideal

noncomputable section

namespace Cert.HeadSpec

open Idealize.ShloMosaic Idealize.ShloMosaic.ValueIdx

abbrev SX : Shape := ⟨4, ![64, 321, 128, 12]⟩
abbrev SW : Shape := ⟨2, ![96, 3072]⟩
abbrev SB : Shape := ⟨1, ![96]⟩

/-- Column 12·d + p of the weight (the time branch's feature (d, p)). -/
def colT (d : Fin 128) (p : Fin 12) : Fin 3072 := ⟨12 * d.val + p.val, by have := d.isLt; have := p.isLt; omega⟩
/-- Column 1536 + 12·d + p of the weight (the frequency branch's feature (d, p)). -/
def colF (d : Fin 128) (p : Fin 12) : Fin 3072 := ⟨1536 + 12 * d.val + p.val, by have := d.isLt; have := p.isLt; omega⟩

/-- Patch p's dot product of the time branch at batch b, variable r, against output column t. -/
def dotT (a0 : SX.Idx → EReal) (W : SW.Idx → EReal) (b : Fin 64) (r : Fin 321) (t : Fin 96) (p : Fin 12) : EReal :=
  ∑ d : Fin 128, a0 (ix4 b r d p) * W (ix2 t (colT d p))
/-- Patch p's dot product of the frequency branch. -/
def dotF (a1 : SX.Idx → EReal) (W : SW.Idx → EReal) (b : Fin 64) (r : Fin 321) (t : Fin 96) (p : Fin 12) : EReal :=
  ∑ d : Fin 128, a1 (ix4 b r d p) * W (ix2 t (colF d p))

/-- The kernel's order: the bias, then for p = 0 … 11 the two dot products added in turn. -/
def kval (a0 a1 : SX.Idx → EReal) (W : SW.Idx → EReal) (bias : SB.Idx → EReal) (b : Fin 64) (r : Fin 321) (t : Fin 96) : EReal :=
  List.foldl (fun a p => a + dotT a0 W b r t p + dotF a1 W b r t p) (bias (ix1 t)) [0, 1, 2, 3, 4, 5, 6, 7, 8, 9, 10, 11]

/-- Feature k of the joined and flattened input: k = 12·d' + p, the time branch for d' < 128, else the frequency branch. -/
def xcat (a0 a1 : SX.Idx → EReal) (b : Fin 64) (r : Fin 321) (k : Fin 3072) : EReal :=
  if h : k.val / 12 < 128 then a0 (ix4 b r ⟨k.val / 12, h⟩ ⟨k.val % 12, Nat.mod_lt _ (by decide)⟩)
  else a1 (ix4 b r ⟨k.val / 12 - 128, by have := k.isLt; omega⟩ ⟨k.val % 12, Nat.mod_lt _ (by decide)⟩)

/-- The reference's order: the 3072-term dot product, plus the bias. -/
def rval (a0 a1 : SX.Idx → EReal) (W : SW.Idx → EReal) (bias : SB.Idx → EReal) (b : Fin 64) (r : Fin 321) (t : Fin 96) : EReal :=
  (∑ k : Fin 3072, xcat a0 a1 b r k * W (ix2 t k)) + bias (ix1 t)

/-- A left fold that adds two terms per step is the start value plus the list's sum of the paired terms. -/
theorem foldl_add_pair {M : Type*} [AddCommMonoid M] {ι : Type*} (f g : ι → M) (z : M) (l : List ι) :
    List.foldl (fun a p => a + f p + g p) z l = z + (l.map fun p => f p + g p).sum := by
  induction l generalizing z with
  | nil => simp
  | cons x xs ih =>
    rw [List.foldl_cons, ih, List.map_cons, List.sum_cons]
    simp only [add_assoc]

/-- The explicit list 0 … 11 sums a function like the sum over all of Fin 12. -/
theorem list12_sum {M : Type*} [AddCommMonoid M] (F : Fin 12 → M) :
    (([0, 1, 2, 3, 4, 5, 6, 7, 8, 9, 10, 11] : List (Fin 12)).map F).sum = ∑ p : Fin 12, F p := by
  rw [Fin.sum_univ_def]
  rfl

/-- A sum over 1536 = 128·12 entries, regrouped by the remainder p and the quotient d of the index by 12. -/
theorem sum_1536 {M : Type*} [AddCommMonoid M] (g : Fin 1536 → M) :
    ∑ i : Fin 1536, g i = ∑ p : Fin 12, ∑ d : Fin 128, g ⟨12 * d.val + p.val, by have := d.isLt; have := p.isLt; omega⟩ := by
  have h := (finProdFinEquiv (m := 128) (n := 12)).sum_comp (fun i : Fin (128 * 12) => g i)
  rw [Fintype.sum_prod_type, Finset.sum_comm] at h
  refine h.symm.trans ?_
  refine Finset.sum_congr rfl fun p _ => Finset.sum_congr rfl fun d _ => ?_
  congr 1
  apply Fin.ext
  simp [finProdFinEquiv]
  omega

/-- A sum over the 3072 flattened features, regrouped patch by patch into the two branches' 128-term sums. -/
theorem sum_3072 {M : Type*} [AddCommMonoid M] (h : Fin 3072 → M) :
    ∑ k : Fin 3072, h k = ∑ p : Fin 12, (∑ d : Fin 128, h (colT d p) + ∑ d : Fin 128, h (colF d p)) := by
  have e1 : ∑ k : Fin 3072, h k = ∑ i : Fin 1536, h (Fin.castAdd 1536 i) + ∑ i : Fin 1536, h (Fin.natAdd 1536 i) :=
    Fin.sum_univ_add (a := 1536) (b := 1536) h
  rw [e1, sum_1536, sum_1536, ← Finset.sum_add_distrib]
  refine Finset.sum_congr rfl fun p _ => ?_
  congr 1 <;> refine Finset.sum_congr rfl fun d _ => ?_ <;> congr 1 <;> apply Fin.ext <;> simp [colT, colF] <;> omega

/-- The joined input at a time-branch column is the time branch's entry. -/
theorem xcat_colT (a0 a1 : SX.Idx → EReal) (b : Fin 64) (r : Fin 321) (d : Fin 128) (p : Fin 12) :
    xcat a0 a1 b r (colT d p) = a0 (ix4 b r d p) := by
  have hd := d.isLt
  have hp := p.isLt
  have hq : (colT d p).val / 12 = d.val := by simp only [colT]; omega
  have hm : (colT d p).val % 12 = p.val := by simp only [colT]; omega
  have hlt : (colT d p).val / 12 < 128 := by omega
  unfold xcat
  rw [dif_pos hlt]
  congr 2 <;> apply Fin.ext <;> simp only [hq, hm]

/-- The joined input at a frequency-branch column is the frequency branch's entry. -/
theorem xcat_colF (a0 a1 : SX.Idx → EReal) (b : Fin 64) (r : Fin 321) (d : Fin 128) (p : Fin 12) :
    xcat a0 a1 b r (colF d p) = a1 (ix4 b r d p) := by
  have hd := d.isLt
  have hp := p.isLt
  have hq : (colF d p).val / 12 - 128 = d.val := by simp only [colF]; omega
  have hm : (colF d p).val % 12 = p.val := by simp only [colF]; omega
  have hlt : ¬ (colF d p).val / 12 < 128 := by simp only [colF]; omega
  unfold xcat
  rw [dif_neg hlt]
  congr 2 <;> apply Fin.ext <;> simp only [hq, hm]

/-- The two orders give one extended real. -/
theorem kval_eq_rval (a0 a1 : SX.Idx → EReal) (W : SW.Idx → EReal) (bias : SB.Idx → EReal) (b : Fin 64) (r : Fin 321) (t : Fin 96) :
    kval a0 a1 W bias b r t = rval a0 a1 W bias b r t := by
  unfold kval rval
  have key : ∀ p : Fin 12, dotT a0 W b r t p + dotF a1 W b r t p =
      ∑ d : Fin 128, xcat a0 a1 b r (colT d p) * W (ix2 t (colT d p)) +
        ∑ d : Fin 128, xcat a0 a1 b r (colF d p) * W (ix2 t (colF d p)) := by
    intro p
    simp only [dotT, dotF, xcat_colT, xcat_colF]
  rw [foldl_add_pair, list12_sum, sum_3072 (fun k => xcat a0 a1 b r k * W (ix2 t k)), add_comm (bias (ix1 t))]
  exact congrArg (· + bias (ix1 t)) (Finset.sum_congr rfl fun p _ => key p)

end Cert.HeadSpec

end
-- ==== Proof.HeadHost.lean ====
/-
  The five arrays the pallas_call's windows stage, as the region finds them, read at an entry of the launch arrays:
  the two activations transposed so that the variable and the patch lead; the two halves of the weight, each cut out,
  reshaped to (96, 128, 12) and transposed to (12, 128, 96); the bias as one row.
-/
import proofs.«117278_g18296560681217_cont_8to1_896_17_alg».proof.Proof.Gen.KernelIdeal.Frame
import proofs.«117278_g18296560681217_cont_8to1_896_17_alg».proof.Proof.HeadSpec
import Idealize.ShloMosaic.Lib.Pipeline.Value
import Idealize.ShloMosaic.Lib.ValueIdx
import Idealize.ShloMosaic.Lib.StableHlo.Run

noncomputable section

namespace Cert.KernelIdeal.Head

open Cert.KernelIdeal Cert.KernelIdeal.Gen
open Idealize.ShloMosaic Idealize.ShloMosaic.TcCoe Idealize.SL.Sem
open Idealize.ShloMosaic.ValueIdx
open Cert.HeadSpec (colT colF)

variable {F : FTy → Type} [FloatOps F]
variable (m : (ℓ : Loc nD τ sig) → Buf (Elt F) ℓ)

/-- The first activation as the region finds it: the launch array with the variable and the patch leading. -/
theorem V_v0_eq (c : Dev nD) :
    (V m c main_v0 : S321x12x64x128.Idx → Elt F .f32)
      = transpose S321x12x64x128 [1, 3, 0, 2] (m ((c : Thread nD τ).loc main_arg0) : S64x321x128x12.Idx → Elt F .f32)
          transposes_S64x321x128x12_S321x12x64x128_1_3_0_2 := by
  dsimp only [Gen.V, Gen.hostOps0]; after_results <;> rfl

/-- The second activation as the region finds it. -/
theorem V_v1_eq (c : Dev nD) :
    (V m c main_v1 : S321x12x64x128.Idx → Elt F .f32)
      = transpose S321x12x64x128 [1, 3, 0, 2] (m ((c : Thread nD τ).loc main_arg1) : S64x321x128x12.Idx → Elt F .f32)
          transposes_S64x321x128x12_S321x12x64x128_1_3_0_2 := by
  dsimp only [Gen.V, Gen.hostOps0]; after_results <;> rfl

/-- The weight's first half as the region finds it: columns 0 … 1535 cut out, each row split as (128, 12), the axes reversed. -/
theorem V_v4_eq (c : Dev nD) :
    (V m c main_v4 : S12x128x96.Idx → Elt F .f32)
      = transpose S12x128x96 [2, 1, 0]
          (shapeCast S96x128x12
            (extractStridedSlice S96x1536 ![0, 0] (m ((c : Thread nD τ).loc main_arg2) : S96x3072.Idx → Elt F .f32)
              slices_S96x3072_S96x1536_0_0)
            shapeCasts_S96x1536_S96x128x12)
          transposes_S96x128x12_S12x128x96_2_1_0 := by
  dsimp only [Gen.V, Gen.hostOps0]; after_results <;> rfl

/-- The weight's second half as the region finds it: columns 1536 … 3071 cut out, each row split as (128, 12), the axes reversed. -/
theorem V_v7_eq (c : Dev nD) :
    (V m c main_v7 : S12x128x96.Idx → Elt F .f32)
      = transpose S12x128x96 [2, 1, 0]
          (shapeCast S96x128x12
            (extractStridedSlice S96x1536 ![0, 1536] (m ((c : Thread nD τ).loc main_arg2) : S96x3072.Idx → Elt F .f32)
              slices_S96x3072_S96x1536_0_1536)
            shapeCasts_S96x1536_S96x128x12)
          transposes_S96x128x12_S12x128x96_2_1_0 := by
  dsimp only [Gen.V, Gen.hostOps0]; after_results <;> rfl

/-- The bias as the region finds it: the launch vector as one row. -/
theorem V_v8_eq (c : Dev nD) :
    (V m c main_v8 : S1x96.Idx → Elt F .f32)
      = shapeCast S1x96 (m ((c : Thread nD τ).loc main_arg3) : S96.Idx → Elt F .f32) shapeCasts_S96_S1x96 := by
  dsimp only [Gen.V, Gen.hostOps0]; after_results <;> rfl

theorem V_v0_apply (c : Dev nD) (r : Fin 321) (p : Fin 12) (b : Fin 64) (d : Fin 128) :
    (V m c main_v0 : S321x12x64x128.Idx → Elt F .f32) (ix4 r p b d)
      = (m ((c : Thread nD τ).loc main_arg0) : S64x321x128x12.Idx → Elt F .f32) (ix4 b r d p) := by
  rw [V_v0_eq]
  -- result axes (variable, patch, batch, depth) are source axes 1, 3, 0, 2
  exact transpose_apply _ _ _ _ _ (fun a => match a with | ⟨0, _⟩ => rfl | ⟨1, _⟩ => rfl | ⟨2, _⟩ => rfl | ⟨3, _⟩ => rfl)

theorem V_v1_apply (c : Dev nD) (r : Fin 321) (p : Fin 12) (b : Fin 64) (d : Fin 128) :
    (V m c main_v1 : S321x12x64x128.Idx → Elt F .f32) (ix4 r p b d)
      = (m ((c : Thread nD τ).loc main_arg1) : S64x321x128x12.Idx → Elt F .f32) (ix4 b r d p) := by
  rw [V_v1_eq]
  exact transpose_apply _ _ _ _ _ (fun a => match a with | ⟨0, _⟩ => rfl | ⟨1, _⟩ => rfl | ⟨2, _⟩ => rfl | ⟨3, _⟩ => rfl)

theorem V_v4_apply (c : Dev nD) (p : Fin 12) (d : Fin 128) (t : Fin 96) :
    (V m c main_v4 : S12x128x96.Idx → Elt F .f32) (ix3 p d t)
      = (m ((c : Thread nD τ).loc main_arg2) : S96x3072.Idx → Elt F .f32) (ix2 t (colT d p)) := by
  have hp := p.isLt; have hd := d.isLt; have ht := t.isLt
  rw [V_v4_eq]
  -- the reversal of the axes: (p, d, t) reads (t, d, p)
  refine (transpose_apply _ _ _ _ (ix3 t d p) (fun a => match a with | ⟨0, _⟩ => rfl | ⟨1, _⟩ => rfl | ⟨2, _⟩ => rfl)).trans ?_
  -- the split of a row as (128, 12): (t, d, p) reads (t, 12 d + p)
  refine (shapeCast_apply _ _ _ (ix2 t (⟨12 * d.val + p.val, by omega⟩ : Fin 1536))
    (by rw [Shape.rowMajor_val_two, Shape.rowMajor_val_three]
        show t.val * 1536 + (12 * d.val + p.val) = (t.val * 128 + d.val) * 12 + p.val
        omega)).trans ?_
  -- the cut at column 0
  exact extractStridedSlice_apply _ _ _ _ _ (fun a => match a with
    | ⟨0, _⟩ => by show t.val = 0 + t.val; omega
    | ⟨1, _⟩ => by show 12 * d.val + p.val = 0 + (12 * d.val + p.val); omega)

theorem V_v7_apply (c : Dev nD) (p : Fin 12) (d : Fin 128) (t : Fin 96) :
    (V m c main_v7 : S12x128x96.Idx → Elt F .f32) (ix3 p d t)
      = (m ((c : Thread nD τ).loc main_arg2) : S96x3072.Idx → Elt F .f32) (ix2 t (colF d p)) := by
  have hp := p.isLt; have hd := d.isLt; have ht := t.isLt
  rw [V_v7_eq]
  refine (transpose_apply _ _ _ _ (ix3 t d p) (fun a => match a with | ⟨0, _⟩ => rfl | ⟨1, _⟩ => rfl | ⟨2, _⟩ => rfl)).trans ?_
  refine (shapeCast_apply _ _ _ (ix2 t (⟨12 * d.val + p.val, by omega⟩ : Fin 1536))
    (by rw [Shape.rowMajor_val_two, Shape.rowMajor_val_three]
        show t.val * 1536 + (12 * d.val + p.val) = (t.val * 128 + d.val) * 12 + p.val
        omega)).trans ?_
  -- the cut at column 1536
  exact extractStridedSlice_apply _ _ _ _ _ (fun a => match a with
    | ⟨0, _⟩ => by show t.val = 0 + t.val; omega
    | ⟨1, _⟩ => by show 1536 + 12 * d.val + p.val = 1536 + (12 * d.val + p.val); omega)

theorem V_v8_apply (c : Dev nD) (t : Fin 96) :
    (V m c main_v8 : S1x96.Idx → Elt F .f32) (ix2 (0 : Fin 1) t)
      = (m ((c : Thread nD τ).loc main_arg3) : S96.Idx → Elt F .f32) (ix1 t) := by
  rw [V_v8_eq]
  -- a vector as one row: (0, t) reads t
  exact shapeCast_apply _ _ _ _
    (by show (S96.rowMajor (ix1 t)).val = (S1x96.rowMajor (ix2 (0 : Fin 1) t)).val
        rw [Shape.rowMajor_val_one, Shape.rowMajor_val_two]
        show t.val = 0 * 96 + t.val
        omega)

end Cert.KernelIdeal.Head

end
-- ==== Proof.RefValue.lean ====
/-
  The reference's result at an entry: the 3072-term dot product of the two branches' features — joined along the
  feature axis and flattened with the patch index fastest — with row t of the weight, plus the bias entry.
-/
import proofs.«117278_g18296560681217_cont_8to1_896_17_alg».proof.Proof.Gen.ReferenceIdeal.Read
import proofs.«117278_g18296560681217_cont_8to1_896_17_alg».proof.Proof.HeadSpec
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.TcCoe
open Idealize.ShloMosaic.ValueIdx

/-- The joined and flattened input at (b, r, k): feature k = 12·d' + p is the time branch's (d', p) for d' < 128 and
    the frequency branch's (d' − 128, p) otherwise. -/
theorem joined_apply (a0 a1 : (⟨S64x321x128x12, .f32⟩ : BufTy).Contents (Elt Ideal)) (b : Fin 64) (r : Fin 321) (k : Fin 3072) :
    val_main_v1 (F := Ideal) a0 a1 (ix3 b r k) = Cert.HeadSpec.xcat a0 a1 b r k := by
  have hb := b.isLt; have hr := r.isLt; have hk := k.isLt
  rw [val_main_v1_apply]
  unfold val_main_v0 Cert.HeadSpec.xcat
  by_cases h : k.val / 12 < 128
  · rw [dif_pos h]
    exact concatenate_pair_apply_left (t := S64x321x256x12) (s₁ := S64x321x128x12) (s₂ := S64x321x128x12) 2 a0 a1
      concatenates_S64x321x128x12_S64x321x128x12_S64x321x256x12_d2 (idx_main_v1 (ix3 b r k)) rfl
      (ix4 b r ⟨k.val / 12, h⟩ ⟨k.val % 12, Nat.mod_lt _ (by decide)⟩) (fun c => by
      match c with
      | ⟨0, _⟩ => show b.val = ((b.val * 321 + r.val) * 3072 + k.val) / 986112; omega
      | ⟨1, _⟩ => show r.val = ((b.val * 321 + r.val) * 3072 + k.val) / 3072 % 321; omega
      | ⟨2, _⟩ => show k.val / 12 = ((b.val * 321 + r.val) * 3072 + k.val) / 12 % 256; omega
      | ⟨3, _⟩ => show k.val % 12 = ((b.val * 321 + r.val) * 3072 + k.val) % 12; omega)
  · rw [dif_neg h]
    exact concatenate_pair_apply_right (t := S64x321x256x12) (s₁ := S64x321x128x12) (s₂ := S64x321x128x12) 2 a0 a1
      concatenates_S64x321x128x12_S64x321x128x12_S64x321x256x12_d2 (idx_main_v1 (ix3 b r k)) rfl rfl
      (ix4 b r ⟨k.val / 12 - 128, by omega⟩ ⟨k.val % 12, Nat.mod_lt _ (by decide)⟩) (fun c hc => by
      match c with
      | ⟨0, _⟩ => show b.val = ((b.val * 321 + r.val) * 3072 + k.val) / 986112; omega
      | ⟨1, _⟩ => show r.val = ((b.val * 321 + r.val) * 3072 + k.val) / 3072 % 321; omega
      | ⟨2, _⟩ => exact absurd rfl hc
      | ⟨3, _⟩ => show k.val % 12 = ((b.val * 321 + r.val) * 3072 + k.val) % 12; omega)
      (by show k.val / 12 - 128 + 128 = ((b.val * 321 + r.val) * 3072 + k.val) / 12 % 256; omega)

/-- The reference's last stage at entry (b, r, t) is the reference-order value of the four arguments. -/
theorem ref_apply (a0 a1 : (⟨S64x321x128x12, .f32⟩ : BufTy).Contents (Elt Ideal)) (W : (⟨S96x3072, .f32⟩ : BufTy).Contents (Elt Ideal))
    (bias : (⟨S96, .f32⟩ : BufTy).Contents (Elt Ideal)) (b : Fin 64) (r : Fin 321) (t : Fin 96) :
    val_main_v5 (F := Ideal) a0 a1 W bias (ix3 b r t) = Cert.HeadSpec.rval a0 a1 W bias b r t := by
  rw [val_main_v5_apply, val_main_v2_apply, val_main_v4_apply, val_main_v3_apply, Ideal.addf_def]
  unfold Cert.HeadSpec.rval
  have e3 : idx_main_v3 (idx_main_v4 (ix3 b r t)) = ix1 t :=
    funext fun a => Fin.ext (by match a with | ⟨0, _⟩ => rfl)
  rw [e3]
  congr 1
  refine Finset.sum_congr rfl fun k _ => ?_
  have e1 : lidx_main_v2 (ix3 b r t) k = ix3 b r k :=
    funext fun a => Fin.ext (by match a with | ⟨0, _⟩ => rfl | ⟨1, _⟩ => rfl | ⟨2, _⟩ => rfl)
  have e2 : ridx_main_v2 (ix3 b r t) k = ix2 t k :=
    funext fun a => Fin.ext (by match a with | ⟨0, _⟩ => rfl | ⟨1, _⟩ => rfl)
  rw [e1, e2, joined_apply]

end Cert.ReferenceIdeal.RefValue

end
-- ==== Proof.HeadFinal.lean ====
/-
  The result array after the run, at the ideal instance, is the reference's result of the launch arrays. Entry
  (b, v, k) of what the body stores at point t, for a row v the write-back moves, is the bias entry plus, patch by patch,
  the two 128-term dot products of variable 24·t + v — the kernel-order value, which is the reference-order value; the
  block the write-back at point t writes is rows 24·t … of the result (nine rows at the last point), and the fourteen
  blocks cover the 321 rows.
-/
import proofs.«117278_g18296560681217_cont_8to1_896_17_alg».proof.Proof.HeadBlocks
import proofs.«117278_g18296560681217_cont_8to1_896_17_alg».proof.Proof.HeadAccValue
import proofs.«117278_g18296560681217_cont_8to1_896_17_alg».proof.Proof.HeadHost
import proofs.«117278_g18296560681217_cont_8to1_896_17_alg».proof.Proof.HeadSpec
import proofs.«117278_g18296560681217_cont_8to1_896_17_alg».proof.Proof.RefValue

set_option maxRecDepth 16384

noncomputable section

namespace Cert.KernelIdeal.Head

open Cert.KernelIdeal Cert.KernelIdeal.Gen
open Idealize.ShloMosaic Idealize.ShloMosaic.TcCoe Idealize.SL.Sem
open Idealize.ShloMosaic.Pipeline (Dat Cfg Window)
open Idealize.ShloMosaic.ValueIdx
open Cert.HeadSpec (kval rval dotT dotF colT colF kval_eq_rval)

variable (m : (ℓ : Loc nD τ sig) → Buf (Elt Ideal) ℓ) (ρ : Dev nD → PrngReg)

/-- The reference's result of the launch arrays, as contents of the kernel's result array. -/
def G (c : Dev nD) : Buf (Elt Ideal) ((c : Thread nD τ).loc main_v9) :=
  Cert.ReferenceIdeal.Read.val_main_v5 (F := Ideal) (m ((c : Thread nD τ).loc main_arg0)) (m ((c : Thread nD τ).loc main_arg1))
    (m ((c : Thread nD τ).loc main_arg2)) (m ((c : Thread nD τ).loc main_arg3))

/-- At an entry it is the kernel-order value. -/
theorem G_apply (c : Dev nD) (b : Fin 64) (r : Fin 321) (k : Fin 96) :
    (G m c : S64x321x96.Idx → EReal) (ix3 b r k)
      = kval (m ((c : Thread nD τ).loc main_arg0)) (m ((c : Thread nD τ).loc main_arg1))
          (m ((c : Thread nD τ).loc main_arg2)) (m ((c : Thread nD τ).loc main_arg3)) b r k :=
  (Cert.ReferenceIdeal.RefValue.ref_apply _ _ _ _ b r k).trans (kval_eq_rval _ _ _ _ b r k).symm

/-- Entry (b, v, k) of what the body stores at point t, for a row the write-back moves: the kernel-order value at
    variable 24·t + v. -/
theorem out_entry (c : Dev nD) (t : Fin grid0.N) (v : Fin 24) (hv : v.val < win0_5.xsize (grid0.coords t) 1)
    (b : Fin 64) (k : Fin 96) (r : Fin 321) (hr : r.val = 24 * t.val + v.val) :
    outAt m c t (ix3 b v k)
      = kval (m ((c : Thread nD τ).loc main_arg0)) (m ((c : Thread nD τ).loc main_arg1))
          (m ((c : Thread nD τ).loc main_arg2)) (m ((c : Thread nD τ).loc main_arg3)) b r k := by
  obtain ⟨e0, e1, -⟩ := sched t
  have h0 : ∀ (p : Fin 12) (d : Fin 128), xfull0 m c t (ix4 v p b d) = m ((c : Thread nD τ).loc main_arg0) (ix4 b r d p) := fun p d =>
    (xfull0_apply m c t v (lt_of_lt_of_eq hv e0.symm) p b d r hr).trans (V_v0_apply m c r p b d)
  have h1 : ∀ (p : Fin 12) (d : Fin 128), xfull1 m c t (ix4 v p b d) = m ((c : Thread nD τ).loc main_arg1) (ix4 b r d p) := fun p d =>
    (xfull1_apply m c t v (lt_of_lt_of_eq hv e1.symm) p b d r hr).trans (V_v1_apply m c r p b d)
  have h2 : ∀ (p : Fin 12) (d : Fin 128), (iblk m c 2 t : S12x128x96.Idx → Elt Ideal .f32) (ix3 p d k) = m ((c : Thread nD τ).loc main_arg2) (ix2 k (colT d p)) := fun p d =>
    (iblk2_apply m c t p d k).trans (V_v4_apply m c p d k)
  have h3 : ∀ (p : Fin 12) (d : Fin 128), (iblk m c 3 t : S12x128x96.Idx → Elt Ideal .f32) (ix3 p d k) = m ((c : Thread nD τ).loc main_arg2) (ix2 k (colF d p)) := fun p d =>
    (iblk3_apply m c t p d k).trans (V_v7_apply m c p d k)
  have h4 : (iblk m c 4 t : S1x96.Idx → Elt Ideal .f32) (ix2 (0 : Fin 1) k) = m ((c : Thread nD τ).loc main_arg3) (ix1 k) :=
    (iblk4_apply m c t k).trans (V_v8_apply m c k)
  unfold outAt
  rw [headOut_apply, acc_apply]
  simp only [h0, h1, h2, h3, h4]
  rfl

/-- What the write-back at point t writes is the reference's result read through the point's block. -/
theorem flushed_eq (c : Dev nD) (t : Fin cfg0.N) :
    (dats m 0 c).flushed 5 t = ((cfg0.win 5).blk t).view.read (Elt Ideal) (G m c) := by
  funext j
  obtain ⟨x0, x2, x1⟩ := xs5 t
  obtain ⟨-, -, -, -, -, ⟨i0, i1, i2⟩⟩ := idxs t
  have hb : (j 0).val < 64 := lt_of_lt_of_le (j 0).isLt (win0_5.xsize_le (grid0.coords t) 0)
  have hv : (j 1).val < 24 := lt_of_lt_of_le (j 1).isLt (win0_5.xsize_le (grid0.coords t) 1)
  have hk : (j 2).val < 96 := lt_of_lt_of_le (j 2).isLt (win0_5.xsize_le (grid0.coords t) 2)
  have hj1 : (j 1).val < win0_5.xsize (grid0.coords t) 1 := (j 1).isLt
  have hr : 24 * t.val + (j 1).val < 321 := by omega
  have hx : win0_5.xinj (grid0.coords t) j = ix3 (⟨(j 0).val, hb⟩ : Fin 64) (⟨(j 1).val, hv⟩ : Fin 24) (⟨(j 2).val, hk⟩ : Fin 96) :=
    funext fun a => by match a with | ⟨0, _⟩ => rfl | ⟨1, _⟩ => rfl | ⟨2, _⟩ => rfl
  have hemb : ((cfg0.win 5).blk t).view.emb j
      = ix3 (⟨(j 0).val, hb⟩ : Fin 64) (⟨24 * t.val + (j 1).val, hr⟩ : Fin 321) (⟨(j 2).val, hk⟩ : Fin 96) :=
    funext fun a => Fin.ext (by
      match a with
      | ⟨0, _⟩ => show win0_5.index t 0 * 64 + 1 * (j 0).val = (j 0).val; rw [i0]; omega
      | ⟨1, _⟩ => show win0_5.index t 1 * 24 + 1 * (j 1).val = 24 * t.val + (j 1).val; rw [i1]; omega
      | ⟨2, _⟩ => show win0_5.index t 2 * 96 + 1 * (j 2).val = (j 2).val; rw [i2]; omega)
  show (dats m 0 c).after 5 t (win0_5.xinj (grid0.coords t) j) = _
  rw [after0_5, hx, out_entry m c t ⟨(j 1).val, hv⟩ hj1 ⟨(j 0).val, hb⟩ ⟨(j 2).val, hk⟩ ⟨24 * t.val + (j 1).val, hr⟩ rfl,
    View.read_apply, hemb, G_apply]
  rfl

/-- Every entry of the result lies in the block of the point its variable's index over 24 names. -/
theorem covered (i : S64x321x96.Idx) :
    ∃ t : Fin cfg0.N, (cfg0.win 5).flush t = true ∧ i ∈ ((cfg0.win 5).blk t).view.set := by
  have h1 : (i 1).val < 321 := (i 1).isLt
  have hN : (i 1).val / 24 < grid0.N := by rw [N_0]; omega
  refine ⟨⟨(i 1).val / 24, hN⟩, flush0_5 _, ?_⟩
  obtain ⟨x0, x2, x1⟩ := xs5 ⟨(i 1).val / 24, hN⟩
  obtain ⟨-, -, -, -, -, ⟨i0, i1, i2⟩⟩ := idxs ⟨(i 1).val / 24, hN⟩
  show i ∈ ((View.whole main_v9).slice (win0_5.rect ⟨(i 1).val / 24, hN⟩)).set
  rw [View.set_slice_whole, Rect.mem_set_unit]
  intro a
  match a with
  | ⟨0, _⟩ =>
    show win0_5.index ⟨(i 1).val / 24, hN⟩ 0 * 64 ≤ (i 0).val ∧ (i 0).val < win0_5.index ⟨(i 1).val / 24, hN⟩ 0 * 64 + win0_5.xsize (grid0.coords ⟨(i 1).val / 24, hN⟩) 0
    rw [i0, x0]; have h0 : (i 0).val < 64 := (i 0).isLt; omega
  | ⟨1, _⟩ =>
    show win0_5.index ⟨(i 1).val / 24, hN⟩ 1 * 24 ≤ (i 1).val ∧ (i 1).val < win0_5.index ⟨(i 1).val / 24, hN⟩ 1 * 24 + win0_5.xsize (grid0.coords ⟨(i 1).val / 24, hN⟩) 1
    rw [i1]; dsimp only at x1 ⊢; omega
  | ⟨2, _⟩ =>
    show win0_5.index ⟨(i 1).val / 24, hN⟩ 2 * 96 ≤ (i 2).val ∧ (i 2).val < win0_5.index ⟨(i 1).val / 24, hN⟩ 2 * 96 + win0_5.xsize (grid0.coords ⟨(i 1).val / 24, hN⟩) 2
    rw [i2, x2]; have h2 : (i 2).val < 96 := (i 2).isLt; omega

/-- The result array after the last write-back is the reference's result. -/
theorem final (c : Dev nD) : (dats m 0 c).arrAt 5 cfg0.N = G m c :=
  (dats m 0 c).arrAt_eq_of_cover 5 (G m c) (fun t _ => flushed_eq m c t) covered

/-- The run, with the result named: every weakly fair execution of @main terminates with the result array at the
    reference's result of the launch arrays and the four arguments as launched. -/
theorem run_value : θ_run defs (onTc (τ := τ) (main (F := Ideal))) ⟨m, fun _ => 0, ρ⟩ (fun r => ∀ c : Dev nD,
      r.2.mem ((c.tc : Thread nD τ).loc main_v9) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 5).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.KernelIdeal.Head

end
-- ==== Proof.lean ====
/-
  The claim: a flatten head — out[b, v, :] = concat(x_time[b, v], x_freq[b, v]).ravel() · Wᵀ + bias — computed by one
  pallas_call over blocks of 24 variables, against the einsum reference.
  The kernel reads the inputs transposed so that the variable and the patch lead, and the weight cut into its two halves
  and rearranged to (patch, feature, column); for each variable it adds to the bias, patch by patch, the time branch's
  and the frequency branch's 128-term dot products. The reference joins the two branches along the feature axis,
  flattens feature and patch with the patch fastest, and takes one 3072-term dot product. Over the extended reals
  the two are the same sum, regrouped: flattened feature 12·d' + p is the time branch's (d', p) for d' < 128 and the
  frequency branch's (d' − 128, p) above, and addition is commutative and associative there, so no finiteness is used.
  The grid's last block overhangs the 321 variables by fifteen rows; the rows written back read rows of the inputs
  inside the arrays only. The three frames: the two kernel programs' by the body's run at every point of the pipeline,
  the reference's by its run; the idealization rewrote nothing.
-/
import proofs.«117278_g18296560681217_cont_8to1_896_17_alg».proof.Defs
import proofs.«117278_g18296560681217_cont_8to1_896_17_alg».proof.Proof.Gen.Kernel
import proofs.«117278_g18296560681217_cont_8to1_896_17_alg».proof.Proof.Gen.KernelIdeal
import proofs.«117278_g18296560681217_cont_8to1_896_17_alg».proof.Proof.Gen.ReferenceIdeal
import proofs.«117278_g18296560681217_cont_8to1_896_17_alg».proof.Proof.Gen.Pre_finite_inputs
import proofs.«117278_g18296560681217_cont_8to1_896_17_alg».proof.Proof.Gen.ReferenceIdeal.Run
import proofs.«117278_g18296560681217_cont_8to1_896_17_alg».proof.Proof.Gen.ReferenceIdeal.Read
import proofs.«117278_g18296560681217_cont_8to1_896_17_alg».proof.Proof.HeadFrameBits
import proofs.«117278_g18296560681217_cont_8to1_896_17_alg».proof.Proof.HeadFinal
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Head.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Head.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the reference's result of the arguments: the kernel's by the run with its result
    named, the reference's by its run, whose term is its last stage; the arguments agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Head.G m c, Cert.KernelIdeal.Head.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
